-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v10)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v10) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v1) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S65536x2 : Shape := ⟨2, ![65536, 2]⟩
abbrev S128x262144 : Shape := ⟨2, ![128, 262144]⟩
abbrev S_ : Shape := ⟨0, ![]⟩

class Facts : Prop where
  bcast_S_S65536x2 : S_.BroadcastsInDim S65536x2 (![] : Fin 0 → Fin S65536x2.rank)
  reducesTo_S65536x2_S_d0_1 : S65536x2.ReducesTo [0, 1] S_
  h_S_ : 0 < S_.numel
  bcast_S_S128x262144 : S_.BroadcastsInDim S128x262144 (![] : Fin 0 → Fin S128x262144.rank)
  reducesTo_S128x262144_S_d0_1 : S128x262144.ReducesTo [0, 1] S_

variable [Facts]

def fn {F : FTy → Type} [FloatOps F] (main_arg0 : FVec F S65536x2 .f32) (main_arg1 : IVec S128x262144 32) : IVec S_ 1 :=
  let main_v0 : FVec F S65536x2 .f32 := Host.absf main_arg0
  let main_cst : FVec F S_ .f32 := constant S_ .f32 0x7F800000#32
  let main_v1 : FVec F S65536x2 .f32 := broadcastInDim S65536x2 ![] bcast_S_S65536x2 main_cst
  let main_v2 : IVec S65536x2 1 := cmpf .olt main_v0 main_v1
  let main_c : IVec S_ 1 := constantI S_ 1 1#1
  let main_v3 : IVec S_ 1 := (fun x v => Host.reduce IntOp.andi x v reducesTo_S65536x2_S_d0_1 h_S_) main_v2 main_c
  let main_c_0 : IVec S_ 32 := constantI S_ 32 0#32
  let main_v4 : IVec S128x262144 32 := broadcastInDim S128x262144 ![] bcast_S_S128x262144 main_c_0
  let main_v5 : IVec S128x262144 1 := cmpi .sge main_arg1 main_v4
  let main_c_1 : IVec S_ 1 := constantI S_ 1 1#1
  let main_v6 : IVec S_ 1 := (fun x v => Host.reduce IntOp.andi x v reducesTo_S128x262144_S_d0_1 h_S_) main_v5 main_c_1
  let main_v7 : IVec S_ 1 := andi main_v3 main_v6
  let main_c_2 : IVec S_ 32 := constantI S_ 32 65536#32
  let main_v8 : IVec S128x262144 32 := broadcastInDim S128x262144 ![] bcast_S_S128x262144 main_c_2
  let main_v9 : IVec S128x262144 1 := cmpi .slt main_arg1 main_v8
  let main_c_3 : IVec S_ 1 := constantI S_ 1 1#1
  let main_v10 : IVec S_ 1 := (fun x v => Host.reduce IntOp.andi x v reducesTo_S128x262144_S_d0_1 h_S_) main_v9 main_c_3
  let main_v11 : IVec S_ 1 := andi main_v7 main_v10
  main_v11
-- ==== Kernel.lean ====
abbrev S65536x2 : Shape := ⟨2, ![65536, 2]⟩
abbrev S128x262144 : Shape := ⟨2, ![128, 262144]⟩
abbrev S256x256x2 : Shape := ⟨3, ![256, 256, 2]⟩
abbrev S256x256x1 : Shape := ⟨3, ![256, 256, 1]⟩
abbrev S256x256 : Shape := ⟨2, ![256, 256]⟩
abbrev S256x512 : Shape := ⟨2, ![256, 512]⟩
abbrev S2x128x262144 : Shape := ⟨3, ![2, 128, 262144]⟩
abbrev S128x256 : Shape := ⟨2, ![128, 256]⟩
abbrev S2x128x256 : Shape := ⟨3, ![2, 128, 256]⟩
abbrev S1x256 : Shape := ⟨2, ![1, 256]⟩
abbrev S16x256 : Shape := ⟨2, ![16, 256]⟩
abbrev S4096 : Shape := ⟨1, ![4096]⟩
abbrev S4096x1 : Shape := ⟨2, ![4096, 1]⟩
abbrev S4096x256 : Shape := ⟨2, ![4096, 256]⟩
abbrev S4096x512 : Shape := ⟨2, ![4096, 512]⟩
abbrev S1x16x256 : Shape := ⟨3, ![1, 16, 256]⟩

abbrev nBuf : Space → Nat
  | .hbm => 13
  | .vmem => 6
  | .smem => 0
  | _ => 0

abbrev bufTy : (tb : Table) → Fin (tcTables nBuf tb) → BufTy
  | .hbm, ⟨0, _⟩ => ⟨S65536x2, .f32⟩
  | .hbm, ⟨1, _⟩ => ⟨S128x262144, .i32⟩
  | .hbm, ⟨2, _⟩ => ⟨S256x256x2, .f32⟩
  | .hbm, ⟨3, _⟩ => ⟨S256x256x1, .f32⟩
  | .hbm, ⟨4, _⟩ => ⟨S256x256, .f32⟩
  | .hbm, ⟨5, _⟩ => ⟨S256x256x1, .f32⟩
  | .hbm, ⟨6, _⟩ => ⟨S256x256, .f32⟩
  | .hbm, ⟨7, _⟩ => ⟨S256x512, .f32⟩
  | .hbm, ⟨8, _⟩ => ⟨S256x512, .bf16⟩
  | .hbm, ⟨9, _⟩ => ⟨S256x512, .f32⟩
  | .hbm, ⟨10, _⟩ => ⟨S256x512, .f32⟩
  | .hbm, ⟨11, _⟩ => ⟨S256x512, .bf16⟩
  | .hbm, ⟨12, _⟩ => ⟨S2x128x262144, .f32⟩
  | .local _ .vmem, ⟨0, _⟩ => ⟨S128x256, .i32⟩
  | .local _ .vmem, ⟨1, _⟩ => ⟨S128x256, .i32⟩
  | .local _ .vmem, ⟨2, _⟩ => ⟨S256x512, .bf16⟩
  | .local _ .vmem, ⟨3, _⟩ => ⟨S256x512, .bf16⟩
  | .local _ .vmem, ⟨4, _⟩ => ⟨S2x128x256, .f32⟩
  | .local _ .vmem, ⟨5, _⟩ => ⟨S2x128x256, .f32⟩
  | _, _ => ⟨S65536x2, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_v9 : Ref sig .tc := ⟨.hbm, 11, rfl⟩
abbrev main_v10 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨1, ![1024], ![false]⟩

@[reducible] def k0_t1_loop : Scf.Loop 32 :=
  let c0_i32 : BitVec 32 := 0#32
  let c8_i32 : BitVec 32 := 8#32
  let v5 : BitVec 32 := Scalar.addi c0_i32 c8_i32
  let c1_i32 : BitVec 32 := 1#32
  ⟨c0_i32, v5, c1_i32⟩
def k0_mult1 (k0_t1 : Fin k0_t1_loop.trips) : BitVec 32 :=
  let c0_i32_5 : BitVec 32 := 0#32
  let c0_i32 : BitVec 32 := 0#32
  let c1_i32 : BitVec 32 := 1#32
  let arg5 : BitVec 32 := Scf.iv c0_i32 c1_i32 k0_t1
  let c1_i32_4 : BitVec 32 := 1#32
  let v6 : BitVec 32 := Scalar.muli arg5 c1_i32_4
  let v7 : BitVec 32 := Scalar.addi c0_i32_5 v6
  let c16_i32 : BitVec 32 := 16#32
  let v8 : BitVec 32 := Scalar.muli v7 c16_i32
  v8
def k0_off1 (k0_t1 : Fin k0_t1_loop.trips) : Fin 2 → Nat :=
  let c0_i32_5 : BitVec 32 := 0#32
  let c0_i32 : BitVec 32 := 0#32
  let c1_i32 : BitVec 32 := 1#32
  let arg5 : BitVec 32 := Scf.iv c0_i32 c1_i32 k0_t1
  let c1_i32_4 : BitVec 32 := 1#32
  let v6 : BitVec 32 := Scalar.muli arg5 c1_i32_4
  let v7 : BitVec 32 := Scalar.addi c0_i32_5 v6
  let c16_i32 : BitVec 32 := 16#32
  let v8 : BitVec 32 := Scalar.muli v7 c16_i32
  let v9 : BitVec 32 := v8
  let v10 : Index := Scalar.indexCast v9
  let c0_6 : Index := 0#32
  ![v10.toNat, 0]
def k0_off2 (k0_t1 : Fin k0_t1_loop.trips) : Fin 3 → Nat :=
  let c0_12 : Index := 0#32
  let c0_i32_5 : BitVec 32 := 0#32
  let c0_i32 : BitVec 32 := 0#32
  let c1_i32 : BitVec 32 := 1#32
  let arg5 : BitVec 32 := Scf.iv c0_i32 c1_i32 k0_t1
  let c1_i32_4 : BitVec 32 := 1#32
  let v6 : BitVec 32 := Scalar.muli arg5 c1_i32_4
  let v7 : BitVec 32 := Scalar.addi c0_i32_5 v6
  let c16_i32 : BitVec 32 := 16#32
  let v8 : BitVec 32 := Scalar.muli v7 c16_i32
  let v9 : BitVec 32 := v8
  let v47 : Index := Scalar.indexCast v9
  let c0_13 : Index := 0#32
  ![0, v47.toNat, 0]
def k0_off3 (k0_t1 : Fin k0_t1_loop.trips) : Fin 3 → Nat :=
  let c1 : Index := 1#32
  let c0_i32_5 : BitVec 32 := 0#32
  let c0_i32 : BitVec 32 := 0#32
  let c1_i32 : BitVec 32 := 1#32
  let arg5 : BitVec 32 := Scf.iv c0_i32 c1_i32 k0_t1
  let c1_i32_4 : BitVec 32 := 1#32
  let v6 : BitVec 32 := Scalar.muli arg5 c1_i32_4
  let v7 : BitVec 32 := Scalar.addi c0_i32_5 v6
  let c16_i32 : BitVec 32 := 16#32
  let v8 : BitVec 32 := Scalar.muli v7 c16_i32
  let v9 : BitVec 32 := v8
  let v51 : Index := Scalar.indexCast v9
  let c0_14 : Index := 0#32
  ![1, v51.toNat, 0]
def cc0_transform_0 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat, arg0.toNat]

abbrev stage0_0 : Fin 2 → Memref sig .tc .vmem S128x256 .i32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S256x512 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S256x512 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S2x128x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

class Facts₀ : Prop where
  shapeCasts_S65536x2_S256x256x2 : S65536x2.ShapeCasts S256x256x2
  slices_S256x256x2_S256x256x1_0_0_0 : S256x256x2.Slices ![0, 0, 0] S256x256x1
  shapeCasts_S256x256x1_S256x256 : S256x256x1.ShapeCasts S256x256
  slices_S256x256x2_S256x256x1_0_0_1 : S256x256x2.Slices ![0, 0, 1] S256x256x1
  concatenates_S256x256_S256x256_S256x512_d1 : Shape.Concatenates [S256x256, S256x256] S256x512 1
  bitsLt_bf16_f32 : FTy.bits .bf16 < FTy.bits .f32
  inb_S256x512_S256x512_0_0 : ∀ a, (![0, 0] : Fin 2 → Nat) a + S256x512.size a ≤ S256x512.size a
  h_S256x512 : 0 < S256x512.numel
  shapeCasts_S256x512_S256x512 : S256x512.ShapeCasts S256x512
  iota_S1x256_d1_w32 : S1x256.Iotas .tc 32 [1]
  h_S16x256 : 0 < S16x256.numel
  shapeCasts_S16x256_S4096 : S16x256.ShapeCasts S4096
  shapeCasts_S4096_S4096x1 : S4096.ShapeCasts S4096x1
  broadcasts_S4096x1_S4096x256 : S4096x1.Broadcasts S4096x256
  broadcasts_S1x256_S4096x256 : S1x256.Broadcasts S4096x256
  natLt_1_32 : 1 < 32
  slices_S4096x512_o0_0_S4096x256 : S4096x512.Slices ![0, 0] S4096x256
  reduces_S4096x256_S4096 : S4096x256.Reduces [1] S4096
  slices_S4096x512_o0_256_S4096x256 : S4096x512.Slices ![0, 256] S4096x256
  shapeCasts_S4096x1_S16x256 : S4096x1.ShapeCasts S16x256
  h_S1x16x256 : 0 < S1x16x256.numel
  shapeCasts_S1x16x256_S16x256 : S1x16x256.ShapeCasts S16x256
  shapeCasts_S16x256_S1x16x256 : S16x256.ShapeCasts S1x16x256
  dot_S4096x256_S256x512_S4096x512_1_0_0_1_n_n_wf : DotDims.WF S4096x256 S256x512 S4096x512 [1] [0] [0] [1] [] []
  hrank0 : 0 < grid0.rank
  k0_t1_ok : k0_t1_loop.OK
  k0_mult1_dvd : ∀ k0_t1 : Fin k0_t1_loop.trips, 16 ∣ (k0_mult1 k0_t1).toNat
  k0_off1_inb : ∀ k0_t1 : Fin k0_t1_loop.trips, ∀ a, (k0_off1 k0_t1) a + S16x256.size a ≤ S128x256.size a
  k0_off2_inb : ∀ k0_t1 : Fin k0_t1_loop.trips, ∀ a, (k0_off2 k0_t1) a + S1x16x256.size a ≤ S2x128x256.size a
  k0_off3_inb : ∀ k0_t1 : Fin k0_t1_loop.trips, ∀ a, (k0_off3 k0_t1) a + S1x16x256.size a ≤ S2x128x256.size a
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S128x256.size a ≤ S128x262144.size a
  hwx0_0 : ∀ i : grid0.Coords, EltTy.bits .i32 = 32 ∨ (Rect.block (s := S128x262144) S128x256.size (cc0_transform_0 i) (hinb0_0 i)).WholeWords (EltTy.packing .i32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S256x512.size a ≤ S256x512.size a
  hwx0_1 : ∀ i : grid0.Coords, EltTy.bits .bf16 = 32 ∨ (Rect.block (s := S256x512) S256x512.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S256x512.size a ≤ S256x512.size a
  hwx0_2 : ∀ i : grid0.Coords, EltTy.bits .bf16 = 32 ∨ (Rect.block (s := S256x512) S256x512.size (cc0_transform_2 i) (hinb0_2 i)).WholeWords (EltTy.packing .bf16)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S2x128x256.size a ≤ S2x128x262144.size a
  hwx0_3 : ∀ i : grid0.Coords, EltTy.bits .f32 = 32 ∨ (Rect.block (s := S2x128x262144) S2x128x256.size (cc0_transform_3 i) (hinb0_3 i)).WholeWords (EltTy.packing .f32)

variable [Facts₀]

def dot_S4096x256_S256x512_S4096x512_1_0_0_1_n_n : DotDims S4096x256 S256x512 S4096x512 where
  lhsContracting := [1]
  rhsContracting := [0]
  lhsNonContracting := [0]
  rhsNonContracting := [1]
  lhsBatch := []
  rhsBatch := []
  wf := dot_S4096x256_S256x512_S4096x512_1_0_0_1_n_n_wf

abbrev win0_0 : Pipeline.Window sig grid0 :=
  Pipeline.Window.ofSpec (Memref.whole main_arg1) S128x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v6) S256x512.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v9) S256x512.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v10) S2x128x256.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S65536x2 : Shape := ⟨2, ![65536, 2]⟩
abbrev S128x262144 : Shape := ⟨2, ![128, 262144]⟩
abbrev S_ : Shape := ⟨0, ![]⟩
abbrev S128x262144x1 : Shape := ⟨3, ![128, 262144, 1]⟩
abbrev S1 : Shape := ⟨1, ![1]⟩
abbrev S1x1x1 : Shape := ⟨3, ![1, 1, 1]⟩
abbrev S128x262144x2 : Shape := ⟨3, ![128, 262144, 2]⟩
abbrev S2x128x262144 : Shape := ⟨3, ![2, 128, 262144]⟩

abbrev nBuf : Space → Nat
  | .hbm => 26
  | .vmem => 0
  | .smem => 0
  | _ => 0

abbrev bufTy : (tb : Table) → Fin (tcTables nBuf tb) → BufTy
  | .hbm, ⟨0, _⟩ => ⟨S65536x2, .f32⟩
  | .hbm, ⟨1, _⟩ => ⟨S128x262144, .i32⟩
  | .hbm, ⟨2, _⟩ => ⟨S_, .i32⟩
  | .hbm, ⟨3, _⟩ => ⟨S128x262144, .i32⟩
  | .hbm, ⟨4, _⟩ => ⟨S128x262144, .i1⟩
  | .hbm, ⟨5, _⟩ => ⟨S_, .i32⟩
  | .hbm, ⟨6, _⟩ => ⟨S128x262144, .i32⟩
  | .hbm, ⟨7, _⟩ => ⟨S128x262144, .i32⟩
  | .hbm, ⟨8, _⟩ => ⟨S128x262144, .i32⟩
  | .hbm, ⟨9, _⟩ => ⟨S128x262144x1, .i32⟩
  | .hbm, ⟨10, _⟩ => ⟨S1, .i32⟩
  | .hbm, ⟨11, _⟩ => ⟨S_, .i32⟩
  | .hbm, ⟨12, _⟩ => ⟨S128x262144x1, .i32⟩
  | .hbm, ⟨13, _⟩ => ⟨S128x262144x1, .i1⟩
  | .hbm, ⟨14, _⟩ => ⟨S1x1x1, .i32⟩
  | .hbm, ⟨15, _⟩ => ⟨S128x262144x1, .i32⟩
  | .hbm, ⟨16, _⟩ => ⟨S128x262144x1, .i1⟩
  | .hbm, ⟨17, _⟩ => ⟨S128x262144x1, .i1⟩
  | .hbm, ⟨18, _⟩ => ⟨S_, .i1⟩
  | .hbm, ⟨19, _⟩ => ⟨S128x262144, .i1⟩
  | .hbm, ⟨20, _⟩ => ⟨S128x262144x2, .f32⟩
  | .hbm, ⟨21, _⟩ => ⟨S128x262144x2, .i1⟩
  | .hbm, ⟨22, _⟩ => ⟨S_, .f32⟩
  | .hbm, ⟨23, _⟩ => ⟨S128x262144x2, .f32⟩
  | .hbm, ⟨24, _⟩ => ⟨S128x262144x2, .f32⟩
  | .hbm, ⟨25, _⟩ => ⟨S2x128x262144, .f32⟩
  | _, _ => ⟨S65536x2, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_call0_c : Ref sig .tc := ⟨.hbm, 2, rfl⟩
abbrev main_call0_v0 : Ref sig .tc := ⟨.hbm, 3, rfl⟩
abbrev main_call0_v1 : Ref sig .tc := ⟨.hbm, 4, rfl⟩
abbrev main_call0_c_0 : Ref sig .tc := ⟨.hbm, 5, rfl⟩
abbrev main_call0_v2 : Ref sig .tc := ⟨.hbm, 6, rfl⟩
abbrev main_call0_v3 : Ref sig .tc := ⟨.hbm, 7, rfl⟩
abbrev main_call0_v4 : Ref sig .tc := ⟨.hbm, 8, rfl⟩
abbrev main_call0_v5 : Ref sig .tc := ⟨.hbm, 9, rfl⟩
abbrev main_call0_c_1 : Ref sig .tc := ⟨.hbm, 10, rfl⟩
abbrev main_call0_c_2 : Ref sig .tc := ⟨.hbm, 11, rfl⟩
abbrev main_call0_v6 : Ref sig .tc := ⟨.hbm, 12, rfl⟩
abbrev main_call0_v7 : Ref sig .tc := ⟨.hbm, 13, rfl⟩
abbrev main_call0_v8 : Ref sig .tc := ⟨.hbm, 14, rfl⟩
abbrev main_call0_v9 : Ref sig .tc := ⟨.hbm, 15, rfl⟩
abbrev main_call0_v10 : Ref sig .tc := ⟨.hbm, 16, rfl⟩
abbrev main_call0_v11 : Ref sig .tc := ⟨.hbm, 17, rfl⟩
abbrev main_call0_c_3 : Ref sig .tc := ⟨.hbm, 18, rfl⟩
abbrev main_call0_v12 : Ref sig .tc := ⟨.hbm, 19, rfl⟩
abbrev main_call0_v13 : Ref sig .tc := ⟨.hbm, 20, rfl⟩
abbrev main_call0_v14 : Ref sig .tc := ⟨.hbm, 21, rfl⟩
abbrev main_call0_cst : Ref sig .tc := ⟨.hbm, 22, rfl⟩
abbrev main_call0_v15 : Ref sig .tc := ⟨.hbm, 23, rfl⟩
abbrev main_v0 : Ref sig .tc := ⟨.hbm, 24, rfl⟩
abbrev main_v1 : Ref sig .tc := ⟨.hbm, 25, rfl⟩

abbrev nD : Nat := 1
abbrev τ : Topo := Topo.v7x

variable {F : FTy → Type} [FloatOps F]

class Facts₀ : Prop where
  bcast_S_S128x262144 : S_.BroadcastsInDim S128x262144 (![] : Fin 0 → Fin S128x262144.rank)
  bcast_S128x262144_S128x262144x1_0_1 : S128x262144.BroadcastsInDim S128x262144x1 (![0, 1] : Fin 2 → Fin S128x262144x1.rank)
  bcast_S_S128x262144x1 : S_.BroadcastsInDim S128x262144x1 (![] : Fin 0 → Fin S128x262144x1.rank)
  bcast_S1_S1x1x1_2 : S1.BroadcastsInDim S1x1x1 (![2] : Fin 1 → Fin S1x1x1.rank)
  bcast_S1x1x1_S128x262144x1_0_1_2 : S1x1x1.BroadcastsInDim S128x262144x1 (![0, 1, 2] : Fin 3 → Fin S128x262144x1.rank)
  reducesTo_S128x262144x1_S128x262144_d2 : S128x262144x1.ReducesTo [2] S128x262144
  h_S_ : 0 < S_.numel
  bcast_S128x262144_S128x262144x2_0_1 : S128x262144.BroadcastsInDim S128x262144x2 (![0, 1] : Fin 2 → Fin S128x262144x2.rank)
  bcast_S_S128x262144x2 : S_.BroadcastsInDim S128x262144x2 (![] : Fin 0 → Fin S128x262144x2.rank)
  transposes_S128x262144x2_S2x128x262144_2_0_1 : S128x262144x2.Transposes [2, 0, 1] S2x128x262144
  gather_S65536x2_S128x262144x1_S128x262144x2_2_0_n_n_0_2_12_wf : GatherDims.WF S65536x2 S128x262144x1 S128x262144x2 [2] [0] [] [0] [] 2 ![1, 2]

variable [Facts₀]

def gather_S65536x2_S128x262144x1_S128x262144x2_2_0_n_n_0_2_12 : GatherDims S65536x2 S128x262144x1 S128x262144x2 where
  offsetDims := [2]
  collapsedSliceDims := [0]
  operandBatchingDims := []
  startIndicesBatchingDims := []
  startIndexMap := [0]
  indexVectorDim := 2
  sliceSizes := ![1, 2]
  wf := gather_S65536x2_S128x262144x1_S128x262144x2_2_0_n_n_0_2_12_wf

class Facts : Prop extends Facts₀ where

variable [Facts]
-- ==== Proof.LoopK.lean ====
/-
  The kernel's loop, trip by trip. Trip `k` of eight reads rows `16 k … 16 k + 15` of the code-word block and stores two
  16 × 256 slabs into the output block: rows `16 k …` of plane 1, then of plane 0. It also loads the slabs it is about
  to overwrite, and uses nothing of what it loaded: so the stores are the same whatever the output block held before,
  at this trip and hence at every number of trips.
-/
import proofs.«423921_j403726926457_3_alg».proof.Proof.Gen.Kernel.Loops

set_option maxRecDepth 16384

noncomputable section

namespace Cert.Kernel.Loop

open Idealize.ShloMosaic Idealize.ShloMosaic.TcCoe Idealize.ShloMosaic.Tactic Idealize.SL.Sem
open Cert.Kernel Cert.Kernel.Gen

variable {F : FTy → Type} [FloatOps F]
variable (𝒱 : Variants) (c : Dev nD) (bd : Option 𝒱.V) (i : grid0.Coords)
  (arg1 : Memref sig .tc .vmem S128x256 .i32) (harg1 : arg1.IsWhole)
  (arg2 : Memref sig .tc .vmem S256x512 .bf16) (harg2 : arg2.IsWhole)
  (arg3 : Memref sig .tc .vmem S256x512 .bf16) (harg3 : arg3.IsWhole)
  (arg4 : Memref sig .tc .vmem S2x128x256 .f32) (harg4 : arg4.IsWhole)
  (v0 v2 : Vec F S256x512 .bf16) (v4 : IVec S1x256 32) (X : BufTy.Contents (Elt F) arg1.view.ty)

/-- The sixteen rows of code words trip `k` reads. -/
abbrev rows (k : Fin k0_t1_loop.trips) : Vec F S16x256 .i32 :=
  View.readAt (Elt F) arg1.view (Rect.unit (s := S128x256) (k0_off1 k) S16x256.size (k0_off1_inb k)).toLoadRect X

/-- Trip `k`'s two stores (the later one first): plane 1's slab, then plane 0's. -/
abbrev stores (k : Fin k0_t1_loop.trips) : List (View.Piece (Elt F) S2x128x256 .f32) :=
  [⟨Rect.unit (s := S2x128x256) (k0_off3 k) S1x16x256.size (k0_off3_inb k),
      k0_pay3 (k0_pay7 (k0_pay1 v0) (k0_pay2 v2) v4 (rows arg1 X k))⟩,
   ⟨Rect.unit (s := S2x128x256) (k0_off2 k) S1x16x256.size (k0_off2_inb k),
      k0_pay8 (k0_pay1 v0) (k0_pay2 v2) v4 (rows arg1 X k)⟩]

/-- What the run of one trip found is those two stores, whatever the output block held. -/
theorem tripL_eq (k : Fin k0_t1_loop.trips) (f : BufTy.Contents (Elt F) arg4.view.ty) :
    tripL_k0_t1 (F := F) 𝒱 c bd i arg1 harg1 arg2 harg2 arg3 harg3 arg4 harg4 v0 v2 v4 X k f
      = stores arg1 v0 v2 v4 X k := by
  unfold tripL_k0_t1 trip_k0_t1
  dsimp only
  sl_unfold_run_names
  rfl

/-- The stores of the first `n` trips do not depend on what the output block held at the loop's entry. -/
theorem pb_indep (G G' : BufTy.Contents (Elt F) arg4.view.ty) : ∀ n : ℕ,
    pb_k0_t1 (F := F) 𝒱 c bd i arg1 harg1 arg2 harg2 arg3 harg3 arg4 harg4 v0 v2 v4 X G n
      = pb_k0_t1 (F := F) 𝒱 c bd i arg1 harg1 arg2 harg2 arg3 harg3 arg4 harg4 v0 v2 v4 X G' n
  | 0 => rfl
  | n + 1 => by
    rw [pb_k0_t1.eq_2, pb_k0_t1.eq_2, pb_indep G G' n]
    unfold pb_k0_t1Step
    by_cases h : n < k0_t1_loop.trips
    · rw [dif_pos h, dif_pos h, tripL_eq, tripL_eq]
    · rw [dif_neg h, dif_neg h]

/-- Every store of the first `n` trips is a store of some trip `k < n`. -/
theorem mem_pb (G : BufTy.Contents (Elt F) arg4.view.ty) : ∀ (n : ℕ) (p : View.Piece (Elt F) S2x128x256 .f32),
    p ∈ pb_k0_t1 (F := F) 𝒱 c bd i arg1 harg1 arg2 harg2 arg3 harg3 arg4 harg4 v0 v2 v4 X G n →
      ∃ k : Fin k0_t1_loop.trips, p ∈ stores arg1 v0 v2 v4 X k
  | 0, p, hp => by rw [pb_k0_t1.eq_1] at hp; exact absurd hp List.not_mem_nil
  | n + 1, p, hp => by
    rw [pb_k0_t1.eq_2] at hp
    unfold pb_k0_t1Step at hp
    by_cases h : n < k0_t1_loop.trips
    · rw [dif_pos h, tripL_eq] at hp
      rcases List.mem_append.mp hp with hp | hp
      · exact ⟨⟨n, h⟩, hp⟩
      · exact mem_pb G n p hp
    · rw [dif_neg h] at hp
      exact mem_pb G n p hp

end Cert.Kernel.Loop

end
-- ==== Proof.LoopKI.lean ====
/-
  The kernel's loop, trip by trip. Trip `k` of eight reads rows `16 k … 16 k + 15` of the code-word block and stores two
  16 × 256 slabs into the output block: rows `16 k …` of plane 1, then of plane 0. It also loads the slabs it is about
  to overwrite, and uses nothing of what it loaded: so the stores are the same whatever the output block held before,
  at this trip and hence at every number of trips.
-/
import proofs.«423921_j403726926457_3_alg».proof.Proof.Gen.KernelIdeal.Loops

set_option maxRecDepth 16384

noncomputable section

namespace Cert.KernelIdeal.Loop

open Idealize.ShloMosaic Idealize.ShloMosaic.TcCoe Idealize.ShloMosaic.Tactic Idealize.SL.Sem
open Cert.KernelIdeal Cert.KernelIdeal.Gen

variable {F : FTy → Type} [FloatOps F]
variable (𝒱 : Variants) (c : Dev nD) (bd : Option 𝒱.V) (i : grid0.Coords)
  (arg1 : Memref sig .tc .vmem S128x256 .i32) (harg1 : arg1.IsWhole)
  (arg2 : Memref sig .tc .vmem S256x512 .bf16) (harg2 : arg2.IsWhole)
  (arg3 : Memref sig .tc .vmem S256x512 .bf16) (harg3 : arg3.IsWhole)
  (arg4 : Memref sig .tc .vmem S2x128x256 .f32) (harg4 : arg4.IsWhole)
  (v0 v2 : Vec F S256x512 .bf16) (v4 : IVec S1x256 32) (X : BufTy.Contents (Elt F) arg1.view.ty)

/-- The sixteen rows of code words trip `k` reads. -/
abbrev rows (k : Fin k0_t1_loop.trips) : Vec F S16x256 .i32 :=
  View.readAt (Elt F) arg1.view (Rect.unit (s := S128x256) (k0_off1 k) S16x256.size (k0_off1_inb k)).toLoadRect X

/-- Trip `k`'s two stores (the later one first): plane 1's slab, then plane 0's. -/
abbrev stores (k : Fin k0_t1_loop.trips) : List (View.Piece (Elt F) S2x128x256 .f32) :=
  [⟨Rect.unit (s := S2x128x256) (k0_off3 k) S1x16x256.size (k0_off3_inb k),
      k0_pay3 (k0_pay7 (k0_pay1 v0) (k0_pay2 v2) v4 (rows arg1 X k))⟩,
   ⟨Rect.unit (s := S2x128x256) (k0_off2 k) S1x16x256.size (k0_off2_inb k),
      k0_pay8 (k0_pay1 v0) (k0_pay2 v2) v4 (rows arg1 X k)⟩]

/-- What the run of one trip found is those two stores, whatever the output block held. -/
theorem tripL_eq (k : Fin k0_t1_loop.trips) (f : BufTy.Contents (Elt F) arg4.view.ty) :
    tripL_k0_t1 (F := F) 𝒱 c bd i arg1 harg1 arg2 harg2 arg3 harg3 arg4 harg4 v0 v2 v4 X k f
      = stores arg1 v0 v2 v4 X k := by
  unfold tripL_k0_t1 trip_k0_t1
  dsimp only
  sl_unfold_run_names
  rfl

/-- The stores of the first `n` trips do not depend on what the output block held at the loop's entry. -/
theorem pb_indep (G G' : BufTy.Contents (Elt F) arg4.view.ty) : ∀ n : ℕ,
    pb_k0_t1 (F := F) 𝒱 c bd i arg1 harg1 arg2 harg2 arg3 harg3 arg4 harg4 v0 v2 v4 X G n
      = pb_k0_t1 (F := F) 𝒱 c bd i arg1 harg1 arg2 harg2 arg3 harg3 arg4 harg4 v0 v2 v4 X G' n
  | 0 => rfl
  | n + 1 => by
    rw [pb_k0_t1.eq_2, pb_k0_t1.eq_2, pb_indep G G' n]
    unfold pb_k0_t1Step
    by_cases h : n < k0_t1_loop.trips
    · rw [dif_pos h, dif_pos h, tripL_eq, tripL_eq]
    · rw [dif_neg h, dif_neg h]

/-- Every store of the first `n` trips is a store of some trip `k < n`. -/
theorem mem_pb (G : BufTy.Contents (Elt F) arg4.view.ty) : ∀ (n : ℕ) (p : View.Piece (Elt F) S2x128x256 .f32),
    p ∈ pb_k0_t1 (F := F) 𝒱 c bd i arg1 harg1 arg2 harg2 arg3 harg3 arg4 harg4 v0 v2 v4 X G n →
      ∃ k : Fin k0_t1_loop.trips, p ∈ stores arg1 v0 v2 v4 X k
  | 0, p, hp => by rw [pb_k0_t1.eq_1] at hp; exact absurd hp List.not_mem_nil
  | n + 1, p, hp => by
    rw [pb_k0_t1.eq_2] at hp
    unfold pb_k0_t1Step at hp
    by_cases h : n < k0_t1_loop.trips
    · rw [dif_pos h, tripL_eq] at hp
      rcases List.mem_append.mp hp with hp | hp
      · exact ⟨⟨n, h⟩, hp⟩
      · exact mem_pb G n p hp
    · rw [dif_neg h] at hp
      exact mem_pb G n p hp

end Cert.KernelIdeal.Loop

end
-- ==== Proof.Spec.lean ====
/-
  The decoded array as ONE function of the two argument arrays, and the shape of the proof.

  The table `tl` has 65536 rows of two columns; the code array `enc` holds, at `(t, n)`, a row number.
  Entry `(v, t, n)` of the result is column `v` of row `enc (t, n)` of the table:
      lookup tl enc (v, t, n) = tl (enc (t, n), v).
  The reference reads that row directly. The kernel reaches it in two steps of eight bits each: it splits a row
  number `e` into `e / 256` and `e % 256`, lays the table out as 256 rows of 512 entries
  (`tab3 tl (h, 256 v + l) = tl (256 h + l, v)`), picks row `e / 256` by a sum against an indicator, and then entry
  `e % 256` of each half by a second sum against an indicator. Both are equal to `lookup` when every code word is a
  row number (`InRange`), and, for the kernel, when the table's entries are real numbers (the kernel adds a second
  table `tab3 tl - tab3 tl`, which is zero only then).
-/
import Idealize.ShloMosaic.PureOps.Ideal
import Idealize.ShloMosaic.Lib.ValueIdx

noncomputable section

namespace Cert.Spec

open Idealize.ShloMosaic Idealize.ShloMosaic.ValueIdx

/-- The table: 65536 rows, two columns. -/
abbrev STab : Shape := ⟨2, ![65536, 2]⟩
/-- The code words: 128 rows of 262144. -/
abbrev SEnc : Shape := ⟨2, ![128, 262144]⟩
/-- The result: one 128 × 262144 plane per table column. -/
abbrev SOut : Shape := ⟨3, ![2, 128, 262144]⟩
/-- The table laid out by the high byte of the row number: 256 rows, the two columns side by side. -/
abbrev ST3 : Shape := ⟨2, ![256, 512]⟩

/-- Every code word is a row number of the table. -/
def InRange (enc : IVec SEnc 32) : Prop := ∀ i, (enc i).toNat < 65536

/-- The code word at `(t, n)`, as a row number (reduced modulo the number of rows, so that it is one for any word). -/
def row (enc : IVec SEnc 32) (t : Fin 128) (n : Fin 262144) : Fin 65536 :=
  ⟨(enc (ix2 t n)).toNat % 65536, Nat.mod_lt _ (by norm_num)⟩

/-- Entry `(v, t, n)` of the decoded array: column `v` of the table row the code word at `(t, n)` names. -/
def lookup (tl : STab.Idx → EReal) (enc : IVec SEnc 32) : SOut.Idx → EReal :=
  fun i => tl (ix2 (row enc ⟨(i 1).val, (i 1).isLt⟩ ⟨(i 2).val, (i 2).isLt⟩) (⟨(i 0).val, (i 0).isLt⟩ : Fin 2))

theorem lookup_apply (tl : STab.Idx → EReal) (enc : IVec SEnc 32) (v : Fin 2) (t : Fin 128) (n : Fin 262144) :
    lookup tl enc (ix3 v t n) = tl (ix2 (row enc t n) v) := rfl

/-- The table by high byte: entry `(h, 256 v + l)` is column `v` of row `256 h + l`. -/
def tab3 (tl : STab.Idx → EReal) : ST3.Idx → EReal :=
  fun j => tl (ix2 (⟨(j 0).val * 256 + (j 1).val % 256, by
      have h0 : (j 0).val < 256 := (j 0).isLt
      have := Nat.mod_lt (j 1).val (show 0 < 256 by norm_num)
      omega⟩ : Fin 65536)
    (⟨(j 1).val / 256, by
      have h1 : (j 1).val < 512 := (j 1).isLt
      omega⟩ : Fin 2))

/-- Splitting a row number into its two bytes and reading the laid-out table there gives back the table's entry. -/
theorem tab3_split (tl : STab.Idx → EReal) (e : Fin 65536) (v : Fin 2)
    (h : Fin 256) (l : Fin 512) (hh : h.val = e.val / 256) (hl : l.val = 256 * v.val + e.val % 256) :
    tab3 tl (ix2 h l) = tl (ix2 e v) := by
  unfold tab3
  have hv : v.val < 2 := v.isLt
  have hm := Nat.mod_lt e.val (show 0 < 256 by norm_num)
  congr 1
  refine congrArg₂ ix2 (Fin.ext ?_) (Fin.ext ?_)
  · show h.val * 256 + l.val % 256 = e.val
    rw [hh, hl]; omega
  · show l.val / 256 = v.val
    rw [hl]; omega

/-- Among the terms `[k = a] · f k` only the one at `a` is not zero: the sum against an indicator picks `f a`. No
    condition on `f`: on the extended reals `0 · x = 0` for every `x`, the infinities included. -/
theorem sum_indicator_mul {n : Nat} (a : Fin n) (f : Fin n → EReal) :
    (∑ k : Fin n, (if k = a then (1 : EReal) else 0) * f k) = f a := by
  rw [Finset.sum_eq_single a]
  · simp
  · intro b _ hb; simp [hb]
  · intro h; exact absurd (Finset.mem_univ a) h

/-- The same with the indicator on the right. -/
theorem sum_mul_indicator {n : Nat} (a : Fin n) (f : Fin n → EReal) :
    (∑ k : Fin n, f k * (if k = a then (1 : EReal) else 0)) = f a := by
  rw [Finset.sum_eq_single a]
  · simp
  · intro b _ hb; simp [hb]
  · intro h; exact absurd (Finset.mem_univ a) h

end Cert.Spec

end
-- ==== Proof.Payload.lean ====
/-
  The arithmetic of one trip of the kernel's loop, read at an entry. A trip takes sixteen rows of code words `x`; for the
  word `e = x (r, q)` it forms the indicator of `e / 256` among 256 (as a 4096 × 256 matrix, one row per word),
  multiplies it into the two tables and adds the products, which picks row `e / 256` of `T + Z`; then multiplies
  each 256-wide half of that row by the indicator of `e % 256` and sums along the row, which picks entry `e % 256`
  of each half. With `Z = 0` the two results are `T (e / 256, e % 256)` and `T (e / 256, 256 + e % 256)`.
-/
import proofs.«423921_j403726926457_3_alg».proof.Proof.Gen.KernelIdeal.Skeleton
import proofs.«423921_j403726926457_3_alg».proof.Proof.Spec
import Idealize.ShloMosaic.Lib.Pipeline.Value
import Idealize.ShloMosaic.Lib.ValueLayout
import Idealize.ShloMosaic.PureOps.Ideal.Laws
import Idealize.ShloMosaic.Lib.StableHlo.Predicate

noncomputable section

namespace Cert.KernelIdeal.Payload

open Idealize.ShloMosaic Idealize.ShloMosaic.ValueIdx Cert.KernelIdeal Cert.KernelIdeal.Gen

/-- The positions along a row, as the kernel makes them. -/
abbrev lanes : IVec S1x256 32 := iota .tc S1x256 32 [1] iota_S1x256_d1_w32

/-! ## Words

The entry `e` is a 32-bit word whose value is below 65536. On such a word the clamp to `[0, 65535]` does nothing,
the arithmetic shift right by eight is division by 256, and the mask with 255 is the remainder modulo 256. -/

/-- A word below 65536 is its own clamp to `[0, 65535]`. -/
theorem clamp_id (e : BitVec 32) (he : e.toNat < 65536) :
    IntOp.minsi 65535#32 (IntOp.maxsi 0#32 e) = e := by
  have hti : e.toInt = e.toNat := StableHlo.Predicate.toInt_eq_toNat_of_lt (by omega)
  have h0 : (0#32 : BitVec 32).toInt = 0 := by decide
  have hM : (65535#32 : BitVec 32).toInt = 65535 := by decide
  have hmax : IntOp.maxsi 0#32 e = e := by
    unfold IntOp.maxsi
    rw [if_neg]
    simp only [BitVec.slt, hti, h0, decide_eq_true_eq]; omega
  rw [hmax]
  unfold IntOp.minsi
  rw [if_neg]
  simp only [BitVec.slt, hti, hM, decide_eq_true_eq]; omega

/-- The arithmetic shift right by eight of a non-negative word is its value divided by 256. -/
theorem shr8_toNat (e : BitVec 32) (he : e.toNat < 65536) :
    (IntOp.shrsi .vector e 8#32).toNat = e.toNat / 256 := by
  have hm : e.msb = false := BitVec.msb_eq_false_iff_two_mul_lt.mpr (by omega)
  unfold IntOp.shrsi
  rw [if_pos (by decide)]
  show (e.sshiftRight (8#32).toNat).toNat = e.toNat / 256
  rw [BitVec.toNat_sshiftRight_of_msb_false hm, Nat.shiftRight_eq_div_pow]
  rfl

/-- The mask with 255 is the value modulo 256. -/
theorem and255_toNat (e : BitVec 32) : (IntOp.andi e 255#32).toNat = e.toNat % 256 := by
  unfold IntOp.andi
  rw [BitVec.toNat_and]
  exact Nat.and_two_pow_sub_one_eq_mod e.toNat 8

/-- A word equals the word of a position below 256 exactly when its value is that position. -/
theorem word_eq_lane (a : BitVec 32) (k : Nat) (hk : k < 256) :
    a = BitVec.ofNat 32 k ↔ a.toNat = k := by
  constructor
  · intro h; rw [h, BitVec.toNat_ofNat]; omega
  · intro h; apply BitVec.eq_of_toNat_eq; rw [h, BitVec.toNat_ofNat]; omega

/-- A condition bit, widened to a word and read as a signed integer, is the real number 1 or 0. -/
theorem sitofp_bit (b : BitVec 1) :
    (((b.setWidth 32).toInt : ℝ) : EReal) = if b = 1#1 then 1 else 0 := by
  rcases BitVec.eq_zero_or_eq_one b with rfl | rfl
  · simp
  · simp

/-! ## Re-laid vectors read at an index -/

section Layout
variable {α : Type}

/-- An `[a, b]` array flattened to `[n]` reads, at `m = r·b + q`, the operand at `(r, q)`. -/
theorem shapeCast_ab_n_apply {a b n : ℕ} (x : (⟨2, ![a, b]⟩ : Shape).Idx → α)
    (h : (⟨2, ![a, b]⟩ : Shape).ShapeCasts ⟨1, ![n]⟩) (m : Fin n) (r : Fin a) (q : Fin b)
    (hm : m.val = r.val * b + q.val) :
    shapeCast ⟨1, ![n]⟩ x h (ix1 m) = x (ix2 r q) :=
  shapeCast_apply x h _ _ (by
    rw [Shape.rowMajor_val_two, Shape.rowMajor_val_one]
    show r.val * b + q.val = m.val
    exact hm.symm)

/-- An `[n]` array stood up as the column `[n, 1]` reads, at `(m, u)`, the operand at `m`. -/
theorem shapeCast_n_n1_apply {n : ℕ} (x : (⟨1, ![n]⟩ : Shape).Idx → α)
    (h : (⟨1, ![n]⟩ : Shape).ShapeCasts ⟨2, ![n, 1]⟩) (m : Fin n) (u : Fin 1) :
    shapeCast ⟨2, ![n, 1]⟩ x h (ix2 m u) = x (ix1 m) :=
  shapeCast_apply x h _ _ (by
    have hu : u.val = 0 := by omega
    rw [Shape.rowMajor_val_two, Shape.rowMajor_val_one]
    show m.val = m.val * 1 + u.val
    rw [hu, Nat.mul_one, Nat.add_zero])

/-- A column `[n, 1]` folded to `[a, b]` reads, at `(r, q)`, the operand at `(r·b + q, 0)`. -/
theorem shapeCast_n1_ab_apply {a b n : ℕ} (x : (⟨2, ![n, 1]⟩ : Shape).Idx → α)
    (h : (⟨2, ![n, 1]⟩ : Shape).ShapeCasts ⟨2, ![a, b]⟩) (r : Fin a) (q : Fin b) (m : Fin n)
    (hm : m.val = r.val * b + q.val) :
    shapeCast ⟨2, ![a, b]⟩ x h (ix2 r q) = x (ix2 m (0 : Fin 1)) :=
  shapeCast_apply x h _ _ (by
    rw [Shape.rowMajor_val_two, Shape.rowMajor_val_two]
    show m.val * 1 + 0 = r.val * b + q.val
    rw [Nat.mul_one, Nat.add_zero, hm])

/-- A column `[a, 1]` broadcast to `[a, b]` reads, at `(p, c)`, the operand's row `p`. -/
theorem broadcastTo_a1_ab_apply {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- A vector stood up as a column and broadcast along the rows reads, at `(p, c)`, the vector at `p`. -/
theorem colBroadcast_apply {a b : ℕ} (v : (⟨1, ![a]⟩ : Shape).Idx → α)
    (h₁ : (⟨1, ![a]⟩ : Shape).ShapeCasts ⟨2, ![a, 1]⟩) (h₂ : (⟨2, ![a, 1]⟩ : Shape).Broadcasts ⟨2, ![a, b]⟩)
    (p : Fin a) (c : Fin b) :
    broadcastTo ⟨2, ![a, b]⟩ (shapeCast ⟨2, ![a, 1]⟩ v h₁) h₂ (ix2 p c) = v (ix1 p) :=
  (broadcastTo_a1_ab_apply _ h₂ p c).trans (shapeCast_n_n1_apply v h₁ p 0)

end Layout

/-- The sum along the rows of an `[a, b]` array, read at row `m`: the sum of that row's entries. -/
theorem rowSum_apply {a b : ℕ} (src : FVec Ideal ⟨2, ![a, b]⟩ .f32)
    (h : (⟨2, ![a, b]⟩ : Shape).Reduces [1] ⟨1, ![a]⟩) (hφ : FKind.Formats .f32)
    (hacc : (0x00000000#32 : BitVec 32) = FKind.add.neutral .f32 hφ) (m : Fin a) :
    multiReduction (F := Ideal) .add [1] ⟨1, ![a]⟩ src 0x00000000#32 h hφ hacc (ix1 m)
      = ∑ l : Fin b, src (ix2 m l) := by
  refine (Ideal.multiReduction_add_single src 0x00000000#32 h hφ hacc (ix1 m)).trans ?_
  refine Finset.sum_congr rfl fun l _ => congrArg src ?_
  funext c
  match c with
  | ⟨0, _⟩ => rfl
  | ⟨1, _⟩ => rfl

/-! ## The indicator of a byte among the 256 positions

A vector `v` of 4096 words, stood up as a column, broadcast along the rows and compared with the positions
`0, …, 255` laid along each row, gives at `(m, l)` the number 1 when `v m` is the word of `l` and 0 otherwise. -/

/-- The positions read at `(0, l)`: the word of `l`. -/
theorem lanes_apply (l : Fin 256) : lanes (ix2 (0 : Fin 1) l) = BitVec.ofNat 32 l.val :=
  iota_single_apply .tc S1x256 32 1 iota_S1x256_d1_w32 (ix2 (0 : Fin 1) l)

/-- The indicator matrix of a word vector at `(m, l)`. -/
theorem indicator_apply (v : IVec S4096 32) (m : Fin 4096) (l : Fin 256) :
    (sitofp (F := Ideal) .f32
        (extui 32
          (cmpi .eq (broadcastTo S4096x256 (shapeCast S4096x1 v shapeCasts_S4096_S4096x1) broadcasts_S4096x1_S4096x256)
            (broadcastTo S4096x256 lanes broadcasts_S1x256_S4096x256))
          natLt_1_32) : FVec Ideal S4096x256 .f32) (ix2 m l)
      = if v (ix1 m) = BitVec.ofNat 32 l.val then (1 : EReal) else 0 := by
  show ((((IntOp.cmpi .eq
      (broadcastTo S4096x256 (shapeCast S4096x1 v shapeCasts_S4096_S4096x1) broadcasts_S4096x1_S4096x256 (ix2 m l))
      (broadcastTo S4096x256 lanes broadcasts_S1x256_S4096x256 (ix2 m l))).setWidth 32).toInt : ℝ) : EReal) = _
  rw [colBroadcast_apply, broadcastTo_1b_ab_apply, lanes_apply, sitofp_bit]
  simp only [StableHlo.Predicate.cmpi_eq_iff]

/-! ## The product with a table, read at an index

The product contracts the left factor's second axis with the right factor's first. At result index `(m, j)` and
contraction position `k` the left factor is read at `(m, k)` and the right one at `(k, j)`: one statement per axis of
each factor, then the sum over the contraction positions re-indexed by `k : Fin 256`. -/

theorem lhs_axis0 (i : S4096x512.Idx) (q : dot_S4096x256_S256x512_S4096x512_1_0_0_1_n_n.contr.Idx) :
    (dot_S4096x256_S256x512_S4096x512_1_0_0_1_n_n.lhsIdx i q 0).val = (i 0).val := by
  unfold DotDims.lhsIdx
  rw [dif_neg (show ¬(0 : Fin S4096x256.rank) ∈ dot_S4096x256_S256x512_S4096x512_1_0_0_1_n_n.lhsBatch by decide),
    dif_pos (show (0 : Fin S4096x256.rank) ∈ dot_S4096x256_S256x512_S4096x512_1_0_0_1_n_n.lhsNonContracting by decide)]
  rfl

theorem lhs_axis1 (i : S4096x512.Idx) (q : dot_S4096x256_S256x512_S4096x512_1_0_0_1_n_n.contr.Idx) :
    (dot_S4096x256_S256x512_S4096x512_1_0_0_1_n_n.lhsIdx i q 1).val = (q ⟨0, by decide⟩).val :=
  dot_S4096x256_S256x512_S4096x512_1_0_0_1_n_n.lhsIdx_val_of_single rfl i q

theorem rhs_axis0 (i : S4096x512.Idx) (q : dot_S4096x256_S256x512_S4096x512_1_0_0_1_n_n.contr.Idx) :
    (dot_S4096x256_S256x512_S4096x512_1_0_0_1_n_n.rhsIdx i q 0).val = (q ⟨0, by decide⟩).val :=
  dot_S4096x256_S256x512_S4096x512_1_0_0_1_n_n.rhsIdx_val_of_single rfl i q

theorem rhs_axis1 (i : S4096x512.Idx) (q : dot_S4096x256_S256x512_S4096x512_1_0_0_1_n_n.contr.Idx) :
    (dot_S4096x256_S256x512_S4096x512_1_0_0_1_n_n.rhsIdx i q 1).val = (i 1).val := by
  unfold DotDims.rhsIdx
  rw [dif_neg (show ¬(1 : Fin S256x512.rank) ∈ dot_S4096x256_S256x512_S4096x512_1_0_0_1_n_n.rhsBatch by decide),
    dif_pos (show (1 : Fin S256x512.rank) ∈ dot_S4096x256_S256x512_S4096x512_1_0_0_1_n_n.rhsNonContracting by decide)]
  rfl

/-- The matrix product into a zero accumulator at `(m, j)`: the sum over `k` of `L (m, k) · R (k, j)`. -/
theorem matmul_apply (L : FVec Ideal S4096x256 .bf16) (R : FVec Ideal S256x512 .bf16) (m : Fin 4096) (j : Fin 512) :
    matmul dot_S4096x256_S256x512_S4096x512_1_0_0_1_n_n none L R (constant (F := Ideal) S4096x512 .f32 0x00000000#32) (ix2 m j)
      = ∑ k : Fin 256, L (ix2 m k) * R (ix2 k j) := by
  show FloatOps.matmul dot_S4096x256_S256x512_S4096x512_1_0_0_1_n_n none L R (constant (F := Ideal) S4096x512 .f32 0x00000000#32) (ix2 m j) = _
  rw [Ideal.matmul_constant_zero_apply, ← Equiv.sum_comp (contrEquiv1 dot_S4096x256_S256x512_S4096x512_1_0_0_1_n_n 256 rfl rfl).symm]
  refine Finset.sum_congr rfl fun k _ => ?_
  have hk := contrEquiv1_symm_val dot_S4096x256_S256x512_S4096x512_1_0_0_1_n_n 256 rfl rfl k
  have el : dot_S4096x256_S256x512_S4096x512_1_0_0_1_n_n.lhsIdx (ix2 m j) ((contrEquiv1 dot_S4096x256_S256x512_S4096x512_1_0_0_1_n_n 256 rfl rfl).symm k) = ix2 m k :=
    funext fun a => Fin.ext (by
      match a with
      | ⟨0, _⟩ => exact lhs_axis0 _ _
      | ⟨1, _⟩ => exact (lhs_axis1 _ _).trans hk)
  have er : dot_S4096x256_S256x512_S4096x512_1_0_0_1_n_n.rhsIdx (ix2 m j) ((contrEquiv1 dot_S4096x256_S256x512_S4096x512_1_0_0_1_n_n 256 rfl rfl).symm k) = ix2 k j :=
    funext fun a => Fin.ext (by
      match a with
      | ⟨0, _⟩ => exact (rhs_axis0 _ _).trans hk
      | ⟨1, _⟩ => exact rhs_axis1 _ _)
  rw [el, er]

/-! ## The trip's terms at an entry

Entry `(r, q)` of the sixteen rows is entry `256 r + q` of the flattened block; `e` is the word there. -/

/-- The position of entry `(r, q)` in the flattened block. -/
abbrev flat (r : Fin 16) (q : Fin 256) : Fin 4096 :=
  ⟨r.val * 256 + q.val, by have := r.isLt; have := q.isLt; omega⟩

/-- A matrix whose row `m` is the indicator of `a`, times a table: row `a` of the table. -/
theorem rowPick (I : FVec Ideal S4096x256 .bf16) (R : FVec Ideal S256x512 .bf16) (m : Fin 4096) (a : Fin 256)
    (hI : ∀ k : Fin 256, I (ix2 m k) = if k = a then (1 : EReal) else 0) (j : Fin 512) :
    matmul dot_S4096x256_S256x512_S4096x512_1_0_0_1_n_n none I R (constant (F := Ideal) S4096x512 .f32 0x00000000#32) (ix2 m j) = R (ix2 a j) := by
  rw [matmul_apply]
  simp only [hI]
  exact Spec.sum_indicator_mul a (fun k => R (ix2 k j))

/-- The clamped and flattened words: at `256 r + q`, the word `e` itself. -/
theorem pay4_apply (x : Vec Ideal S16x256 .i32) (hx : ∀ j, (x j).toNat < 65536) (r : Fin 16) (q : Fin 256) :
    k0_pay4 (F := Ideal) x (ix1 (flat r q)) = x (ix2 r q) := by
  unfold k0_pay4
  refine (shapeCast_ab_n_apply _ shapeCasts_S16x256_S4096 (flat r q) r q rfl).trans ?_
  exact clamp_id _ (hx _)

/-- The low byte's indicator: at `(256 r + q, l)`, 1 when `l = e % 256` and 0 otherwise. -/
theorem pay5_apply (x : Vec Ideal S16x256 .i32) (hx : ∀ j, (x j).toNat < 65536) (r : Fin 16) (q : Fin 256)
    (l : Fin 256) :
    k0_pay5 (F := Ideal) lanes x (ix2 (flat r q) l)
      = if l = (⟨(x (ix2 r q)).toNat % 256, Nat.mod_lt _ (by norm_num)⟩ : Fin 256) then (1 : EReal) else 0 := by
  unfold k0_pay5
  refine (indicator_apply _ (flat r q) l).trans ?_
  have hv : andi (k0_pay4 (F := Ideal) x) (broadcast S4096 255#32) (ix1 (flat r q))
      = IntOp.andi (x (ix2 r q)) 255#32 := by
    show IntOp.andi (k0_pay4 (F := Ideal) x (ix1 (flat r q))) 255#32 = _
    rw [pay4_apply x hx r q]
  rw [hv]
  refine if_congr ?_ rfl rfl
  rw [word_eq_lane _ _ l.isLt, and255_toNat, Fin.ext_iff]
  exact eq_comm

/-- The high byte's indicator, as the product's left factor: at `(256 r + q, k)`, 1 when `k = e / 256`. -/
theorem hiInd_apply (x : Vec Ideal S16x256 .i32) (hx : ∀ j, (x j).toNat < 65536) (r : Fin 16) (q : Fin 256)
    (k : Fin 256) :
    (truncf .bf16
        (sitofp (F := Ideal) .f32
          (extui 32
            (cmpi .eq
              (broadcastTo S4096x256
                (shapeCast S4096x1 (shrsi (k0_pay4 (F := Ideal) x) (broadcast S4096 8#32)) shapeCasts_S4096_S4096x1)
                broadcasts_S4096x1_S4096x256)
              (broadcastTo S4096x256 lanes broadcasts_S1x256_S4096x256))
            natLt_1_32) : FVec Ideal S4096x256 .f32)
        bitsLt_bf16_f32 : FVec Ideal S4096x256 .bf16) (ix2 (flat r q) k)
      = if k = (⟨(x (ix2 r q)).toNat / 256, by have := hx (ix2 r q); omega⟩ : Fin 256) then (1 : EReal) else 0 := by
  refine (truncf_apply (φ := .f32) (ψ := .bf16) _ bitsLt_bf16_f32 _).trans ((indicator_apply _ (flat r q) k).trans ?_)
  have hv : shrsi (k0_pay4 (F := Ideal) x) (broadcast S4096 8#32) (ix1 (flat r q))
      = IntOp.shrsi .vector (x (ix2 r q)) 8#32 := by
    show IntOp.shrsi .vector (k0_pay4 (F := Ideal) x (ix1 (flat r q))) 8#32 = _
    rw [pay4_apply x hx r q]
  rw [hv]
  refine if_congr ?_ rfl rfl
  rw [word_eq_lane _ _ k.isLt, shr8_toNat _ (hx _), Fin.ext_iff]
  exact eq_comm

/-- The two products added: at `(256 r + q, j)`, entry `(e / 256, j)` of the first table (the second is zero). -/
theorem pay6_apply (T Z : FVec Ideal S256x512 .bf16) (hZ : ∀ j, Z j = 0) (x : Vec Ideal S16x256 .i32)
    (hx : ∀ j, (x j).toNat < 65536) (r : Fin 16) (q : Fin 256) (j : Fin 512) :
    k0_pay6 (F := Ideal) (k0_pay1 T) (k0_pay2 Z) lanes x (ix2 (flat r q) j)
      = T (ix2 (⟨(x (ix2 r q)).toNat / 256, by have := hx (ix2 r q); omega⟩ : Fin 256) j) := by
  have hT : k0_pay1 (F := Ideal) T = T := shapeCast_self T shapeCasts_S256x512_S256x512
  have hZ' : k0_pay2 (F := Ideal) Z = Z := shapeCast_self Z shapeCasts_S256x512_S256x512
  rw [hT, hZ']
  unfold k0_pay6
  refine (addf_apply _ _ _).trans ?_
  refine (congrArg₂ (· + ·)
    (rowPick _ T (flat r q) _ (fun k => hiInd_apply x hx r q k) j)
    (rowPick _ Z (flat r q) _ (fun k => hiInd_apply x hx r q k) j)).trans ?_
  show T _ + Z _ = T _
  rw [hZ, add_zero]

/-- INTERFACE. The first plane's piece at `(r, q)`: entry `(e / 256, e % 256)` of the first table. -/
theorem pay8_apply (T Z : FVec Ideal S256x512 .bf16) (hZ : ∀ j, Z j = 0) (x : Vec Ideal S16x256 .i32)
    (hx : ∀ j, (x j).toNat < 65536) (r : Fin 16) (q : Fin 256) :
    k0_pay8 (F := Ideal) (k0_pay1 T) (k0_pay2 Z) lanes x (ix3 (0 : Fin 1) r q)
      = T (ix2 (⟨(x (ix2 r q)).toNat / 256, by have := hx (ix2 r q); omega⟩ : Fin 256)
              (⟨(x (ix2 r q)).toNat % 256, by omega⟩ : Fin 512)) := by
  unfold k0_pay8
  refine (shapeCast_ab_1ab_apply _ shapeCasts_S16x256_S1x16x256 0 r q).trans ?_
  refine (shapeCast_n1_ab_apply _ shapeCasts_S4096x1_S16x256 r q (flat r q) rfl).trans ?_
  refine (shapeCast_n_n1_apply _ shapeCasts_S4096_S4096x1 (flat r q) 0).trans ?_
  refine (rowSum_apply _ reduces_S4096x256_S4096 _ _ (flat r q)).trans ?_
  refine (Finset.sum_congr rfl fun l _ => (mulf_apply _ _ _).trans (congrArg₂ (· * ·)
    ((slice2_axis1_eq 0 _ slices_S4096x512_o0_0_S4096x256 (flat r q) l).trans (pay6_apply T Z hZ x hx r q _))
    (pay5_apply x hx r q l))).trans ?_
  refine (Spec.sum_mul_indicator (⟨(x (ix2 r q)).toNat % 256, Nat.mod_lt _ (by norm_num)⟩ : Fin 256)
    (fun l : Fin 256 => T (ix2 (⟨(x (ix2 r q)).toNat / 256, by have := hx (ix2 r q); omega⟩ : Fin 256)
      (⟨0 + l.val, by have := l.isLt; omega⟩ : Fin 512)))).trans ?_
  exact congrArg T (congrArg (ix2 _) (Fin.ext (Nat.zero_add _)))

/-- INTERFACE. The second plane's piece at `(r, q)`: entry `(e / 256, 256 + e % 256)` of the first table. -/
theorem pay7_apply (T Z : FVec Ideal S256x512 .bf16) (hZ : ∀ j, Z j = 0) (x : Vec Ideal S16x256 .i32)
    (hx : ∀ j, (x j).toNat < 65536) (r : Fin 16) (q : Fin 256) :
    k0_pay3 (F := Ideal) (k0_pay7 (k0_pay1 T) (k0_pay2 Z) lanes x) (ix3 (0 : Fin 1) r q)
      = T (ix2 (⟨(x (ix2 r q)).toNat / 256, by have := hx (ix2 r q); omega⟩ : Fin 256)
              (⟨256 + (x (ix2 r q)).toNat % 256, by omega⟩ : Fin 512)) := by
  unfold k0_pay3
  refine (shapeCast_ab_1ab_apply _ shapeCasts_S16x256_S1x16x256 0 r q).trans ?_
  unfold k0_pay7
  refine (shapeCast_n1_ab_apply _ shapeCasts_S4096x1_S16x256 r q (flat r q) rfl).trans ?_
  refine (shapeCast_n_n1_apply _ shapeCasts_S4096_S4096x1 (flat r q) 0).trans ?_
  refine (rowSum_apply _ reduces_S4096x256_S4096 _ _ (flat r q)).trans ?_
  refine (Finset.sum_congr rfl fun l _ => (mulf_apply _ _ _).trans (congrArg₂ (· * ·)
    ((slice2_axis1_eq 256 _ slices_S4096x512_o0_256_S4096x256 (flat r q) l).trans (pay6_apply T Z hZ x hx r q _))
    (pay5_apply x hx r q l))).trans ?_
  exact Spec.sum_mul_indicator (⟨(x (ix2 r q)).toNat % 256, Nat.mod_lt _ (by norm_num)⟩ : Fin 256)
    (fun l : Fin 256 => T (ix2 (⟨(x (ix2 r q)).toNat / 256, by have := hx (ix2 r q); omega⟩ : Fin 256)
      (⟨256 + l.val, by have := l.isLt; omega⟩ : Fin 512)))

end Cert.KernelIdeal.Payload

end
-- ==== Proof.Pieces.lean ====
/-
  Every store of the loop is a slab of ONE function of the output block's index. With `x0` the block of code words and
  `x1` the table by high byte, entry `(v, R, q)` of the output block is `x1 (e / 256, 256 v + e % 256)` for
  `e = x0 (R, q)`: trip `k` stores rows `16 k … 16 k + 15` of plane 1 and of plane 0, each entry the trip's arithmetic at
  the code word of its own row and column.
-/
import proofs.«423921_j403726926457_3_alg».proof.Proof.LoopKI
import proofs.«423921_j403726926457_3_alg».proof.Proof.Payload
import Idealize.ShloMosaic.Lib.Pipeline.Value

set_option maxRecDepth 16384

noncomputable section

namespace Cert.KernelIdeal.Pieces

open Idealize.ShloMosaic Idealize.ShloMosaic.TcCoe Idealize.SL.Sem Idealize.ShloMosaic.ValueIdx
open Cert.KernelIdeal Cert.KernelIdeal.Gen Cert.KernelIdeal.Loop Cert.KernelIdeal.Payload

/-- The code word at row `R`, column `q` of the block. -/
abbrev word (x0 : Vec Ideal S128x256 .i32) (R : Fin 128) (q : Fin 256) : ℕ := (x0 (ix2 R q)).toNat

/-- Entry `(v, R, q)` of the output block: the table by high byte at row `e / 256`, column `256 v + e % 256`. -/
def blockFn (x0 : Vec Ideal S128x256 .i32) (x1 : FVec Ideal S256x512 .bf16) : S2x128x256.Idx → EReal :=
  fun y => x1 (ix2 (⟨word x0 ⟨(y 1).val, (y 1).isLt⟩ ⟨(y 2).val, (y 2).isLt⟩ / 256 % 256, Nat.mod_lt _ (by norm_num)⟩ : Fin 256)
    (⟨(256 * (y 0).val + word x0 ⟨(y 1).val, (y 1).isLt⟩ ⟨(y 2).val, (y 2).isLt⟩ % 256) % 512, Nat.mod_lt _ (by norm_num)⟩ : Fin 512))

theorem blockFn_apply (x0 : Vec Ideal S128x256 .i32) (x1 : FVec Ideal S256x512 .bf16) (v : Fin 2) (R : Fin 128) (q : Fin 256) :
    blockFn x0 x1 (ix3 v R q)
      = x1 (ix2 (⟨word x0 R q / 256 % 256, Nat.mod_lt _ (by norm_num)⟩ : Fin 256)
          (⟨(256 * v.val + word x0 R q % 256) % 512, Nat.mod_lt _ (by norm_num)⟩ : Fin 512)) := rfl

variable (arg1 : Memref sig .tc .vmem S128x256 .i32) (harg1 : arg1.IsWhole)

/-- The rows trip `k` reads are rows `16 k … 16 k + 15` of the block. -/
theorem rows_apply (x0 : Vec Ideal S128x256 .i32) (k : Fin k0_t1_loop.trips) (r : Fin 16) (q : Fin 256) :
    rows (F := Ideal) arg1 (harg1.unread x0) k (ix2 r q)
      = x0 (ix2 (⟨16 * k.val + r.val, by have := k.isLt; have := k0_t1_abs.2.1; omega⟩ : Fin 128) q) := by
  unfold rows
  rw [View.readAt_eq_ld, harg1.read_unread]
  show x0 _ = x0 _
  congr 1
  funext a
  refine Fin.ext ?_
  have ho := k0_off1_eq k
  match a with
  | ⟨0, _⟩ =>
    show (k0_off1 k) 0 + 1 * r.val = 16 * k.val + r.val
    rw [ho]; show 16 * k.val + 1 * r.val = _; omega
  | ⟨1, _⟩ =>
    show (k0_off1 k) 1 + 1 * q.val = q.val
    rw [ho]; show 0 + 1 * q.val = _; omega

variable (x0 : Vec Ideal S128x256 .i32) (x1 x2 : FVec Ideal S256x512 .bf16)

/-- The words a trip reads are words of the block. -/
theorem rows_lt (hx0 : ∀ j, (x0 j).toNat < 65536) (k : Fin k0_t1_loop.trips) (j : S16x256.Idx) :
    (rows (F := Ideal) arg1 (harg1.unread x0) k j).toNat < 65536 := by
  obtain ⟨r, q, rfl⟩ : ∃ (r : Fin 16) (q : Fin 256), j = ix2 r q := ⟨j 0, j 1, eq_ix2 j⟩
  rw [rows_apply]
  exact hx0 _

/-- Where trip `k`'s slab of plane `v` sits in the block: rows `16 k + r`. -/
theorem slab_emb (v : Fin 2) (off : Fin 3 → ℕ) (k : Fin k0_t1_loop.trips) (hoff : off = ![v.val, 16 * k.val, 0])
    (inb : ∀ a, off a + S1x16x256.size a ≤ S2x128x256.size a) (r : Fin 16) (q : Fin 256) :
    (Rect.unit (s := S2x128x256) off S1x16x256.size inb).emb (ix3 (0 : Fin 1) r q)
      = ix3 v (⟨16 * k.val + r.val, by have := k.isLt; have := k0_t1_abs.2.1; omega⟩ : Fin 128) q := by
  subst hoff
  funext a
  refine Fin.ext ?_
  match a with
  | ⟨0, _⟩ => show v.val + 1 * 0 = v.val; omega
  | ⟨1, _⟩ => show 16 * k.val + 1 * r.val = 16 * k.val + r.val; omega
  | ⟨2, _⟩ => show 0 + 1 * q.val = q.val; omega

/-- EVERY STORE of trip `k` is a slab of `blockFn`: at its local index the payload is `blockFn` at the block index under
    it. The code words are row numbers (`hx0`), and the second table is zero (`hx2`). -/
theorem piece_ok (hx0 : ∀ j, (x0 j).toNat < 65536) (hx2 : ∀ j, x2 j = 0) (k : Fin k0_t1_loop.trips)
    (p : View.Piece (Elt Ideal) S2x128x256 .f32)
    (hp : p ∈ stores (F := Ideal) arg1 x1 x2 lanes (harg1.unread x0) k) (x : p.1.shape.Idx) :
    p.2 x = blockFn x0 x1 (p.1.emb x) := by
  have hr := rows_lt arg1 harg1 x0 hx0 k
  rcases List.mem_cons.mp hp with rfl | hp
  · obtain ⟨a, r, q, rfl⟩ : ∃ (a : Fin 1) (r : Fin 16) (q : Fin 256), x = ix3 a r q := ⟨x 0, x 1, x 2, eq_ix3 x⟩
    obtain rfl : a = 0 := Subsingleton.elim _ _
    show k0_pay3 (k0_pay7 (k0_pay1 x1) (k0_pay2 x2) lanes (rows arg1 (harg1.unread x0) k)) (ix3 (0 : Fin 1) r q)
      = blockFn x0 x1 ((Rect.unit (s := S2x128x256) (k0_off3 k) S1x16x256.size (k0_off3_inb k)).emb (ix3 (0 : Fin 1) r q))
    rw [pay7_apply x1 x2 hx2 _ hr r q, slab_emb 1 _ k (k0_off3_eq k), blockFn_apply]
    have hw := hx0 (ix2 (⟨16 * k.val + r.val, by have := k.isLt; have := k0_t1_abs.2.1; omega⟩ : Fin 128) q)
    congr 1
    refine congrArg₂ ix2 (Fin.ext ?_) (Fin.ext ?_)
    · simp only [rows_apply, word, Fin.val_mk]; omega
    · simp only [rows_apply, word, Fin.val_mk, Fin.val_one]; omega
  · obtain rfl := List.mem_singleton.mp hp
    obtain ⟨a, r, q, rfl⟩ : ∃ (a : Fin 1) (r : Fin 16) (q : Fin 256), x = ix3 a r q := ⟨x 0, x 1, x 2, eq_ix3 x⟩
    obtain rfl : a = 0 := Subsingleton.elim _ _
    show k0_pay8 (k0_pay1 x1) (k0_pay2 x2) lanes (rows arg1 (harg1.unread x0) k) (ix3 (0 : Fin 1) r q)
      = blockFn x0 x1 ((Rect.unit (s := S2x128x256) (k0_off2 k) S1x16x256.size (k0_off2_inb k)).emb (ix3 (0 : Fin 1) r q))
    rw [pay8_apply x1 x2 hx2 _ hr r q, slab_emb 0 _ k (k0_off2_eq k), blockFn_apply]
    have hw := hx0 (ix2 (⟨16 * k.val + r.val, by have := k.isLt; have := k0_t1_abs.2.1; omega⟩ : Fin 128) q)
    congr 1
    refine congrArg₂ ix2 (Fin.ext ?_) (Fin.ext ?_)
    · simp only [rows_apply, word, Fin.val_mk]; omega
    · simp only [rows_apply, word, Fin.val_mk, Fin.val_zero]; omega

end Cert.KernelIdeal.Pieces

end
-- ==== Proof.KernelRun.lean ====
/-
  What the kernel's body leaves in the output block, as ONE function. The body's stores are the stores of its eight
  loop trips; each is a slab of `Pieces.blockFn` (`Pieces.piece_ok`), and together they cover the block; so the block
  reads back as `blockFn` of the code-word block and the table by high byte.
-/
import proofs.«423921_j403726926457_3_alg».proof.Proof.KIFrame
import proofs.«423921_j403726926457_3_alg».proof.Proof.Pieces

set_option maxRecDepth 16384

noncomputable section

namespace Cert.KernelIdeal.KRun

open Idealize.ShloMosaic Idealize.ShloMosaic.TcCoe Idealize.ShloMosaic.Tactic Idealize.SL.Sem Idealize.ShloMosaic.ValueIdx
open Cert.KernelIdeal Cert.KernelIdeal.Gen Cert.KernelIdeal.GenP Cert.KernelIdeal.Loop Cert.KernelIdeal.Pieces
  Cert.KernelIdeal.Payload

variable (c : Dev nD) (i : grid0.Coords)
  (arg1 : Memref sig .tc .vmem S128x256 .i32) (harg1 : arg1.IsWhole)
  (arg2 : Memref sig .tc .vmem S256x512 .bf16) (harg2 : arg2.IsWhole)
  (arg3 : Memref sig .tc .vmem S256x512 .bf16) (harg3 : arg3.IsWhole)
  (arg4 : Memref sig .tc .vmem S2x128x256 .f32) (harg4 : arg4.IsWhole)
  (x0 : Vec Ideal S128x256 .i32) (x1 x2 : Vec Ideal S256x512 .bf16)

theorem hz2 : (![0, 0] : Fin 2 → Nat) = fun _ => 0 := funext fun a => by fin_cases a <;> rfl

/-- The stores the whole body's run found are those of the loop's trips, over the two tables as loaded whole and the
    code-word block. -/
theorem run_pieces :
    (kernelRun0_A (F := Ideal) c i arg1 harg1 arg2 harg2 arg3 harg3 arg4 harg4 x0 x1 x2).1
      = pb_k0_t1 (F := Ideal) Variants.none c none i arg1 harg1 arg2 harg2 arg3 harg3 arg4 harg4 x1 x2 lanes
          (harg1.unread x0) arg4.view.junk k0_t1_loop.trips := by
  unfold kernelRun0_A
  dsimp only
  sl_unfold_run_names
  simp only [View.readAt_eq_ld, harg2.read_unread, harg3.read_unread, View.ld_unit_zero (S := S256x512) hz2]

/-- THE OUTPUT BLOCK after the body: `blockFn` of the code-word block and the first table, the code words being row
    numbers and the second table zero. -/
theorem out_eq (hx0 : ∀ j, (x0 j).toNat < 65536) (hx2 : ∀ j, x2 j = 0) :
    out0_A_3 (F := Ideal) c i arg1 harg1 arg2 harg2 arg3 harg3 arg4 harg4 x0 x1 x2 = blockFn x0 x1 := by
  unfold out0_A_3
  rw [View.read_writes_eq_canon _ _ _ (cover0_A_3 c i arg1 harg1 arg2 harg2 arg3 harg3 arg4 harg4 x0 x1 x2)]
  funext y
  refine View.canon_apply_of_pieces (blockFn x0 x1) _ (fun p hp x => ?_) y
    (cover0_A_3 c i arg1 harg1 arg2 harg2 arg3 harg3 arg4 harg4 x0 x1 x2 y)
  rw [run_pieces] at hp
  obtain ⟨k, hk⟩ := mem_pb Variants.none c none i arg1 harg1 arg2 harg2 arg3 harg3 arg4 harg4 x1 x2 lanes
    (harg1.unread x0) arg4.view.junk k0_t1_loop.trips p hp
  exact piece_ok arg1 harg1 x0 x1 x2 hx0 hx2 k p hk x

end Cert.KernelIdeal.KRun

end
-- ==== Proof.LibFinite.lean ====
/-
  General facts on the extended reals and on arrays of extended reals: which
  operations keep a value finite (a real number), and the distributive law of a
  product over a sum inside a finite sum, which holds for finite terms.
-/
import Idealize.ShloMosaic.PureOps.Ideal
import Idealize.ShloMosaic.PureOps.Ideal.Laws
import Idealize.ShloMosaic.Lib.ValueIdx

noncomputable section

namespace Cert.Fin

open Idealize.ShloMosaic
open scoped BigOperators

/-- An extended real is finite when it is (the image of) a real number. -/
def IsFin (x : EReal) : Prop := ∃ r : ℝ, x = (r : EReal)

/-- An array of extended reals is finite when every entry is. -/
def AllFin {ι : Type*} (v : ι → EReal) : Prop := ∀ i, IsFin (v i)

/-- A real number, read as an extended real, is finite. -/
theorem isFin_coe (r : ℝ) : IsFin (r : EReal) := ⟨r, rfl⟩

/-- Zero is finite. -/
theorem isFin_zero : IsFin 0 := ⟨0, rfl⟩

/-- One is finite. -/
theorem isFin_one : IsFin 1 := ⟨1, rfl⟩

/-- A finite value is neither infinity. -/
theorem IsFin.ne_top {x : EReal} (h : IsFin x) : x ≠ ⊤ := by
  obtain ⟨r, rfl⟩ := h; exact EReal.coe_ne_top r

/-- A finite value is neither infinity. -/
theorem IsFin.ne_bot {x : EReal} (h : IsFin x) : x ≠ ⊥ := by
  obtain ⟨r, rfl⟩ := h; exact EReal.coe_ne_bot r

/-- A value that is neither infinity is finite. -/
theorem isFin_of_ne {x : EReal} (ht : x ≠ ⊤) (hb : x ≠ ⊥) : IsFin x := by
  induction x using EReal.rec with
  | bot => exact absurd rfl hb
  | top => exact absurd rfl ht
  | coe r => exact ⟨r, rfl⟩

/-- Finite exactly when neither infinity. -/
theorem isFin_iff {x : EReal} : IsFin x ↔ x ≠ ⊤ ∧ x ≠ ⊥ :=
  ⟨fun h => ⟨h.ne_top, h.ne_bot⟩, fun h => isFin_of_ne h.1 h.2⟩

/-- The sum of two finite values is finite. -/
theorem IsFin.add {a b : EReal} (ha : IsFin a) (hb : IsFin b) : IsFin (a + b) := by
  obtain ⟨r, rfl⟩ := ha; obtain ⟨s, rfl⟩ := hb
  exact ⟨r + s, (EReal.coe_add r s).symm⟩

/-- The product of two finite values is finite. -/
theorem IsFin.mul {a b : EReal} (ha : IsFin a) (hb : IsFin b) : IsFin (a * b) := by
  obtain ⟨r, rfl⟩ := ha; obtain ⟨s, rfl⟩ := hb
  exact ⟨r * s, (EReal.coe_mul r s).symm⟩

/-- The negation of a finite value is finite. -/
theorem IsFin.neg {a : EReal} (ha : IsFin a) : IsFin (-a) := by
  obtain ⟨r, rfl⟩ := ha
  exact ⟨-r, (EReal.coe_neg r).symm⟩

/-- The difference of two finite values is finite. -/
theorem IsFin.sub {a b : EReal} (ha : IsFin a) (hb : IsFin b) : IsFin (a - b) := by
  obtain ⟨r, rfl⟩ := ha; obtain ⟨s, rfl⟩ := hb
  exact ⟨r - s, (EReal.coe_sub r s).symm⟩

/-- The maximum of two finite values is finite. -/
theorem IsFin.max {a b : EReal} (ha : IsFin a) (hb : IsFin b) : IsFin (max a b) := by
  rcases max_choice a b with h | h <;> rw [h] <;> assumption

/-- The minimum of two finite values is finite. -/
theorem IsFin.min {a b : EReal} (ha : IsFin a) (hb : IsFin b) : IsFin (min a b) := by
  rcases min_choice a b with h | h <;> rw [h] <;> assumption

/-- A finite sum of finite values is finite. -/
theorem isFin_sum {ι : Type*} (s : Finset ι) (f : ι → EReal) (h : ∀ i ∈ s, IsFin (f i)) :
    IsFin (∑ i ∈ s, f i) := by
  classical
  induction s using Finset.induction_on with
  | empty => simpa using isFin_zero
  | insert a s ha ih =>
    rw [Finset.sum_insert ha]
    exact (h a (Finset.mem_insert_self a s)).add (ih fun i hi => h i (Finset.mem_insert_of_mem hi))

/-- The coercion of the reals into the extended reals commutes with finite sums. -/
theorem coe_sum {ι : Type*} (s : Finset ι) (f : ι → ℝ) :
    ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- A finite array is the coercion of an array of reals. -/
theorem AllFin.exists_real {ι : Type*} {v : ι → EReal} (h : AllFin v) :
    ∃ r : ι → ℝ, ∀ i, v i = (r i : EReal) := by
  choose r hr using h
  exact ⟨r, hr⟩

/-- Inside a finite sum, a product distributes over a sum of two finite terms. -/
theorem sum_mul_add2 {K : ℕ} (x a b : Fin K → EReal) (hx : AllFin x) (ha : AllFin a) (hb : AllFin b) :
    ∑ k, x k * (a k + b k) = (∑ k, x k * a k) + ∑ k, x k * b k := by
  obtain ⟨xr, hxr⟩ := hx.exists_real
  obtain ⟨ar, har⟩ := ha.exists_real
  obtain ⟨br, hbr⟩ := hb.exists_real
  simp only [hxr, har, hbr, ← EReal.coe_add, ← EReal.coe_mul, ← coe_sum]
  congr 1
  rw [← Finset.sum_add_distrib]
  exact Finset.sum_congr rfl fun k _ => by ring

/-- Inside a finite sum, a product distributes over a sum of three finite terms. -/
theorem sum_mul_add3 {K : ℕ} (x a b c : Fin K → EReal) (hx : AllFin x) (ha : AllFin a) (hb : AllFin b)
    (hc : AllFin c) :
    ∑ k, x k * ((a k + b k) + c k) = ((∑ k, x k * a k) + ∑ k, x k * b k) + ∑ k, x k * c k := by
  obtain ⟨xr, hxr⟩ := hx.exists_real
  obtain ⟨ar, har⟩ := ha.exists_real
  obtain ⟨br, hbr⟩ := hb.exists_real
  obtain ⟨cr, hcr⟩ := hc.exists_real
  simp only [hxr, har, hbr, hcr, ← EReal.coe_add, ← EReal.coe_mul, ← coe_sum]
  congr 1
  rw [← Finset.sum_add_distrib, ← Finset.sum_add_distrib]
  exact Finset.sum_congr rfl fun k _ => by ring

/-- The same distributive law over any finite index type. -/
theorem sum_mul_add3' {ι : Type*} [Fintype ι] (x a b c : ι → EReal) (hx : AllFin x) (ha : AllFin a)
    (hb : AllFin b) (hc : AllFin c) :
    ∑ k, x k * ((a k + b k) + c k) = ((∑ k, x k * a k) + ∑ k, x k * b k) + ∑ k, x k * c k := by
  obtain ⟨xr, hxr⟩ := hx.exists_real
  obtain ⟨ar, har⟩ := ha.exists_real
  obtain ⟨br, hbr⟩ := hb.exists_real
  obtain ⟨cr, hcr⟩ := hc.exists_real
  simp only [hxr, har, hbr, hcr, ← EReal.coe_add, ← EReal.coe_mul, ← coe_sum]
  congr 1
  rw [← Finset.sum_add_distrib, ← Finset.sum_add_distrib]
  exact Finset.sum_congr rfl fun k _ => by ring

/-- The two-term law over any finite index type. -/
theorem sum_mul_add2' {ι : Type*} [Fintype ι] (x a b : ι → EReal) (hx : AllFin x) (ha : AllFin a)
    (hb : AllFin b) :
    ∑ k, x k * (a k + b k) = (∑ k, x k * a k) + ∑ k, x k * b k := by
  obtain ⟨xr, hxr⟩ := hx.exists_real
  obtain ⟨ar, har⟩ := ha.exists_real
  obtain ⟨br, hbr⟩ := hb.exists_real
  simp only [hxr, har, hbr, ← EReal.coe_add, ← EReal.coe_mul, ← coe_sum]
  congr 1
  rw [← Finset.sum_add_distrib]
  exact Finset.sum_congr rfl fun k _ => by ring

/-! ### The float literals -/

/-- The word of `+0.0` denotes zero. -/
theorem ofBits_zero : Ideal.ofBits .f32 0x00000000#32 = 0 := Ideal.ofBits_zero_f32

/-- The word of `1.0` denotes one. -/
theorem ofBits_one : Ideal.ofBits .f32 0x3F800000#32 = 1 := by
  simp [Ideal.ofBits, Ideal.ieee, -EReal.coe_mul]; norm_num

/-- The word of `64.0` denotes the real number sixty-four. -/
theorem ofBits_64 : Ideal.ofBits .f32 0x42800000#32 = ((64 : ℝ) : EReal) := by
  simp [Ideal.ofBits, Ideal.ieee, -EReal.coe_mul]; norm_num

/-- The word nearest `1e-5` denotes the dyadic rational `10995116 / 2^40`. -/
theorem ofBits_eps : Ideal.ofBits .f32 0x3727C5AC#32 = ((10995116 / 2 ^ 40 : ℝ) : EReal) := by
  simp [Ideal.ofBits, Ideal.ieee, -EReal.coe_mul]; norm_num

/-- Zero's word denotes a finite value. -/
theorem isFin_ofBits_zero : IsFin (Ideal.ofBits .f32 0x00000000#32) := ofBits_zero ▸ isFin_zero

/-- One's word denotes a finite value. -/
theorem isFin_ofBits_one : IsFin (Ideal.ofBits .f32 0x3F800000#32) := ofBits_one ▸ isFin_one

/-- Sixty-four's word denotes a finite value. -/
theorem isFin_ofBits_64 : IsFin (Ideal.ofBits .f32 0x42800000#32) := ofBits_64 ▸ isFin_coe _

/-- The small positive constant's word denotes a finite value. -/
theorem isFin_ofBits_eps : IsFin (Ideal.ofBits .f32 0x3727C5AC#32) := ofBits_eps ▸ isFin_coe _

/-- Sixty-four is not zero. -/
theorem ofBits_64_ne_zero : Ideal.ofBits .f32 0x42800000#32 ≠ 0 := by
  rw [ofBits_64]; exact_mod_cast (by norm_num : (64 : ℝ) ≠ 0)

/-- Sixty-four is positive. -/
theorem ofBits_64_pos : 0 < Ideal.ofBits .f32 0x42800000#32 := by
  rw [ofBits_64]; exact_mod_cast (by norm_num : (0 : ℝ) < 64)

/-- One is not zero. -/
theorem ofBits_one_ne_zero : Ideal.ofBits .f32 0x3F800000#32 ≠ 0 := by
  rw [ofBits_one]; exact one_ne_zero

/-- The small constant is positive. -/
theorem ofBits_eps_pos : 0 < Ideal.ofBits .f32 0x3727C5AC#32 := by
  rw [ofBits_eps]; exact_mod_cast (by positivity : (0 : ℝ) < 10995116 / 2 ^ 40)

/-! ### Quotient and reciprocal square root -/

/-- The quotient of a real by a nonzero real, as extended reals, is the real quotient. -/
theorem div_coe_coe (r s : ℝ) (hs : s ≠ 0) : Ideal.div (r : EReal) (s : EReal) = ((r / s : ℝ) : EReal) := by
  rw [Ideal.div, if_neg (by exact_mod_cast hs), ← EReal.coe_inv, ← EReal.coe_mul, div_eq_mul_inv]

/-- The quotient of a finite value by a finite nonzero value is finite. -/
theorem IsFin.div {x y : EReal} (hx : IsFin x) (hy : IsFin y) (hy0 : y ≠ 0) : IsFin (Ideal.div x y) := by
  obtain ⟨r, rfl⟩ := hx; obtain ⟨s, rfl⟩ := hy
  have hs : s ≠ 0 := by exact_mod_cast hy0
  exact ⟨r / s, div_coe_coe r s hs⟩

/-- The reciprocal square root of a positive real is the real `1 / √r`. -/
theorem rsqrt_coe_pos (r : ℝ) (hr : 0 < r) : Ideal.rsqrt (r : EReal) = (((Real.sqrt r)⁻¹ : ℝ) : EReal) := by
  rw [Ideal.rsqrt_coe, if_neg (not_lt.mpr hr.le), if_neg hr.ne']

/-- The reciprocal square root of a finite positive value is finite. -/
theorem IsFin.rsqrt {x : EReal} (hx : IsFin x) (hpos : 0 < x) : IsFin (Ideal.rsqrt x) := by
  obtain ⟨r, rfl⟩ := hx
  have hr : 0 < r := by exact_mod_cast hpos
  exact ⟨_, rsqrt_coe_pos r hr⟩

/-- The reciprocal square root of a finite positive value is positive. -/
theorem rsqrt_pos {x : EReal} (hx : IsFin x) (hpos : 0 < x) : 0 < Ideal.rsqrt x := by
  obtain ⟨r, rfl⟩ := hx
  have hr : 0 < r := by exact_mod_cast hpos
  rw [rsqrt_coe_pos r hr]
  exact_mod_cast inv_pos.mpr (Real.sqrt_pos.mpr hr)

/-- A finite value times itself is not negative. -/
theorem mul_self_nonneg' {x : EReal} (hx : IsFin x) : 0 ≤ x * x := by
  obtain ⟨r, rfl⟩ := hx
  rw [← EReal.coe_mul]; exact_mod_cast mul_self_nonneg r

/-- A finite sum of values that are not negative is not negative. -/
theorem sum_nonneg' {ι : Type*} (s : Finset ι) (f : ι → EReal) (h : ∀ i ∈ s, 0 ≤ f i) : 0 ≤ ∑ i ∈ s, f i :=
  Finset.sum_nonneg h

/-- A sum of squared deviations of finite values from a finite centre is not negative. -/
theorem sum_sq_nonneg {ι : Type*} (s : Finset ι) (h : ι → EReal) (μ : EReal) (hh : ∀ j ∈ s, IsFin (h j))
    (hμ : IsFin μ) : 0 ≤ ∑ j ∈ s, (h j - μ) * (h j - μ) :=
  Finset.sum_nonneg fun j hj => mul_self_nonneg' ((hh j hj).sub hμ)

/-- The quotient of a finite value that is not negative by a finite positive value is not negative. -/
theorem div_nonneg' {x y : EReal} (hx : IsFin x) (hx0 : 0 ≤ x) (hy : IsFin y) (hy0 : 0 < y) :
    0 ≤ Ideal.div x y := by
  obtain ⟨r, rfl⟩ := hx; obtain ⟨s, rfl⟩ := hy
  have hr : 0 ≤ r := by exact_mod_cast hx0
  have hs : 0 < s := by exact_mod_cast hy0
  rw [div_coe_coe r s hs.ne']
  exact_mod_cast div_nonneg hr hs.le

/-- A value that is not negative plus a positive value is positive. -/
theorem add_pos' {a b : EReal} (ha : 0 ≤ a) (hb : 0 < b) : 0 < a + b :=
  lt_of_lt_of_le hb (le_add_of_nonneg_left ha)

/-- The mean of squared deviations over sixty-four, plus the small constant, is positive (and finite). -/
theorem var_add_eps_pos {ι : Type*} (s : Finset ι) (h : ι → EReal) (μ : EReal) (hh : ∀ j ∈ s, IsFin (h j))
    (hμ : IsFin μ) :
    0 < Ideal.div (∑ j ∈ s, (h j - μ) * (h j - μ)) (Ideal.ofBits .f32 0x42800000#32)
        + Ideal.ofBits .f32 0x3727C5AC#32 :=
  add_pos' (div_nonneg' (isFin_sum s _ fun j hj => ((hh j hj).sub hμ).mul ((hh j hj).sub hμ))
    (sum_sq_nonneg s h μ hh hμ) isFin_ofBits_64 ofBits_64_pos) ofBits_eps_pos

/-- … and it is finite. -/
theorem var_add_eps_fin {ι : Type*} (s : Finset ι) (h : ι → EReal) (μ : EReal) (hh : ∀ j ∈ s, IsFin (h j))
    (hμ : IsFin μ) :
    IsFin (Ideal.div (∑ j ∈ s, (h j - μ) * (h j - μ)) (Ideal.ofBits .f32 0x42800000#32)
        + Ideal.ofBits .f32 0x3727C5AC#32) :=
  ((isFin_sum s _ fun j hj => ((hh j hj).sub hμ).mul ((hh j hj).sub hμ)).div isFin_ofBits_64
    ofBits_64_ne_zero).add isFin_ofBits_eps

/-! ### Array operations keep finiteness -/

section Arrays
variable {s t : Shape} {φ : FTy}

/-- The entrywise sum of two finite arrays is finite. -/
theorem allFin_addf {x y : FVec Ideal s φ} (hx : AllFin x) (hy : AllFin y) : AllFin (addf x y) :=
  fun i => (hx i).add (hy i)

/-- The entrywise difference of two finite arrays is finite. -/
theorem allFin_subf {x y : FVec Ideal s φ} (hx : AllFin x) (hy : AllFin y) : AllFin (subf x y) :=
  fun i => (hx i).sub (hy i)

/-- The entrywise product of two finite arrays is finite. -/
theorem allFin_mulf {x y : FVec Ideal s φ} (hx : AllFin x) (hy : AllFin y) : AllFin (mulf x y) :=
  fun i => (hx i).mul (hy i)

/-- The entrywise maximum of two finite arrays is finite. -/
theorem allFin_maximumf {x y : FVec Ideal s φ} (hx : AllFin x) (hy : AllFin y) : AllFin (maximumf x y) :=
  fun i => (hx i).max (hy i)

/-- The entrywise minimum of two finite arrays is finite. -/
theorem allFin_minimumf {x y : FVec Ideal s φ} (hx : AllFin x) (hy : AllFin y) : AllFin (minimumf x y) :=
  fun i => (hx i).min (hy i)

/-- The entrywise negation of a finite array is finite. -/
theorem allFin_negf {x : FVec Ideal s φ} (hx : AllFin x) : AllFin (negf x) :=
  fun i => (hx i).neg

/-- The entrywise quotient of a finite array by a finite, nowhere zero array is finite. -/
theorem allFin_divf {x y : FVec Ideal s φ} (hx : AllFin x) (hy : AllFin y) (hy0 : ∀ i, y i ≠ 0) :
    AllFin (divf x y) :=
  fun i => (hx i).div (hy i) (hy0 i)

/-- The same for the quotient as the reference program writes it. -/
theorem allFin_hostDivf {x y : FVec Ideal s φ} (hx : AllFin x) (hy : AllFin y) (hy0 : ∀ i, y i ≠ 0) :
    AllFin (Host.divf x y) :=
  fun i => (hx i).div (hy i) (hy0 i)

/-- The entrywise reciprocal square root of a finite, everywhere positive array is finite. -/
theorem allFin_rsqrt {x : FVec Ideal s φ} (hx : AllFin x) (hpos : ∀ i, 0 < x i) : AllFin (rsqrt x) :=
  fun i => (hx i).rsqrt (hpos i)

/-- The same for the reciprocal square root as the reference program writes it. -/
theorem allFin_hostRsqrt {x : FVec Ideal s φ} (hx : AllFin x) (hpos : ∀ i, 0 < x i) : AllFin (Host.rsqrt x) :=
  fun i => (hx i).rsqrt (hpos i)

/-- A change of format is the identity on extended reals, so it keeps finiteness. -/
theorem allFin_truncf {x : FVec Ideal s φ} (ψ : FTy) (h : ψ.bits < φ.bits) (hx : AllFin x) :
    AllFin (truncf ψ x h) :=
  fun i => hx i

/-- A change of format is the identity on extended reals, so it keeps finiteness. -/
theorem allFin_extf {x : FVec Ideal s φ} (ψ : FTy) (h : φ.bits < ψ.bits) (hx : AllFin x) :
    AllFin (extf ψ x h) :=
  fun i => hx i

/-- The array that repeats one finite value is finite. -/
theorem allFin_broadcast {x : EReal} (hx : IsFin x) : AllFin (broadcast t x) :=
  fun _ => hx

/-- Every entry of a broadcast array is an entry of its source. -/
theorem allFin_broadcastTo {x : s.Idx → EReal} (h : s.Broadcasts t) (hx : AllFin x) :
    AllFin (broadcastTo t x h) :=
  fun _ => hx _

/-- Every entry of a broadcast array is an entry of its source. -/
theorem allFin_broadcastInDim {x : s.Idx → EReal} (dims : Fin s.rank → Fin t.rank)
    (h : s.BroadcastsInDim t dims) (hx : AllFin x) : AllFin (broadcastInDim t dims h x) :=
  fun _ => hx _

/-- Every entry of a reshaped array is an entry of its source. -/
theorem allFin_shapeCast {x : s.Idx → EReal} (h : s.ShapeCasts t) (hx : AllFin x) :
    AllFin (shapeCast t x h) :=
  fun _ => hx _

/-- Every entry of a slice is an entry of its source. -/
theorem allFin_slice {x : s.Idx → EReal} (off : Fin s.rank → Nat) (h : s.Slices off t) (hx : AllFin x) :
    AllFin (extractStridedSlice t off x h) :=
  fun _ => hx _

/-- Every entry of a transposed array is an entry of its source. -/
theorem allFin_transpose {x : s.Idx → EReal} (perm : List (Fin s.rank)) (h : s.Transposes perm t)
    (hx : AllFin x) : AllFin (transpose t perm x h) :=
  fun _ => hx _

/-- The constant array of a word that denotes a finite value is finite. -/
theorem allFin_constant {b : BitVec φ.bits} (hb : IsFin (Ideal.ofBits φ b)) :
    AllFin (constant (F := Ideal) s φ b) :=
  fun _ => hb

/-- An entrywise choice between two finite arrays is finite. -/
theorem allFin_select {c : IVec s 1} {a b : s.Idx → EReal} (ha : AllFin a) (hb : AllFin b) :
    AllFin (select c a b) := by
  intro i
  show IsFin (Scalar.select (c i) (a i) (b i))
  unfold Scalar.select
  split
  · exact ha i
  · exact hb i

/-- Every entry of a gathered array is an entry of its source, whatever the indices. -/
theorem allFin_gather {si : Shape} {w : Nat} (d : GatherDims s si t) {x : s.Idx → EReal} (idx : IVec si w)
    (hx : AllFin x) : AllFin (Host.gather d x idx) :=
  fun _ => hx _

/-- An accumulating scatter gives, at each place, the operand's entry plus a finite sum of update
    entries: finite when the operand and the updates are. -/
theorem allFin_scatterAdd {si u : Shape} {w : Nat} (d : ScatterDims s si u) {x : FVec Ideal s φ}
    (idx : IVec si w) {upd : FVec Ideal u φ} (hx : AllFin x) (hu : AllFin upd) :
    AllFin (Host.scatterAdd d x idx upd) :=
  fun i => (hx i).add (isFin_sum _ _ fun j _ => hu j)

/-- A matrix product into a finite accumulator, of finite operands, is finite: each entry is the
    accumulator's plus a finite sum of products. -/
theorem allFin_matmul {sl sr so : Shape} {φ₁ φ₂ : FTy} (d : DotDims sl sr so) (prec : Option ContractPrecision)
    {lhs : FVec Ideal sl φ₁} {rhs : FVec Ideal sr φ₂} {acc : FVec Ideal so .f32} (hl : AllFin lhs)
    (hr : AllFin rhs) (ha : AllFin acc) : AllFin (matmul d prec lhs rhs acc) :=
  fun j => (ha j).add (isFin_sum _ _ fun k _ => (hl _).mul (hr _))

/-- The reference's matrix product of finite operands is finite: each entry is a finite sum of products. -/
theorem allFin_dotGeneral {sl sr so : Shape} {φ₁ φ₂ : FTy} (d : DotDims sl sr so)
    (prec : Option ContractPrecision) {lhs : FVec Ideal sl φ₁} {rhs : FVec Ideal sr φ₂} (hl : AllFin lhs)
    (hr : AllFin rhs) : AllFin (Host.dotGeneral d prec lhs rhs) :=
  fun j => isFin_zero.add (isFin_sum _ _ fun k _ => (hl _).mul (hr _))

/-- The reference's sum over axes, from a finite initial value, of a finite array is finite. -/
theorem allFin_reduceAdd {axes : List (Fin s.rank)} {u : Shape} {x : FVec Ideal s φ} {init : u.Idx → Ideal φ}
    (h : s.ReducesTo axes t) (hu : 0 < u.numel) (hx : AllFin x) (hi : AllFin init) :
    AllFin (Host.reduceAdd x init h hu) :=
  fun j => (hi _).add (isFin_sum _ _ fun i _ => hx i)

/-- The kernel's sum over axes of a finite array is finite. -/
theorem allFin_multiReduction_add {axes : List (Fin s.rank)} {x : FVec Ideal s φ} (acc : BitVec φ.bits)
    (h : s.Reduces axes t) (hφ : FKind.Formats φ) (hacc : acc = FKind.add.neutral φ hφ) (hx : AllFin x) :
    AllFin (multiReduction .add axes t x acc h hφ hacc) := by
  intro j
  show IsFin (Ideal.reduceAdd h x j)
  unfold Ideal.reduceAdd
  exact isFin_sum _ _ fun i _ => hx i

/-- Every entry of a concatenation is an entry of one of its parts. -/
theorem allFin_concatenate (a : Fin t.rank) (xs : List ((s : Shape) × (s.Idx → EReal)))
    (h : Shape.Concatenates (xs.map (·.1)) t a) (hxs : ∀ p ∈ xs, AllFin p.2) :
    AllFin (concatenate t a xs h) := by
  intro j
  unfold concatenate
  exact hxs _ (List.getElem_mem _) _

end Arrays

end Cert.Fin

end
-- ==== Proof.Tables.lean ====
/-
  The two tables the kernel's region finds, as functions of the argument table: the first is the table laid out by
  the high byte of the row number (`Spec.tab3`: a reshape, two slices, a concatenation, and a change of float format that
  is the identity on the extended reals); the second is that table minus itself, which is zero where the entries are
  real numbers.

  The layout, read at one entry `(p, j)` of the 256 × 512 result. The table `[65536, 2]` is first read as
  `[256, 256, 2]`: in row-major order entry `(p, q, v)` is entry `(256 p + q, v)` of the table. Column `v` of it,
  `[256, 256, 1]` and then `[256, 256]`, holds at `(p, q)` the table's entry `(256 p + q, v)`. The two columns are
  set side by side: entry `(p, j)` of the result is column 0 at `(p, j)` for `j < 256` and column 1 at `(p, j - 256)`
  otherwise; in both cases this is entry `(256 p + j % 256, j / 256)` of the table, which is `Spec.tab3`.
-/
import proofs.«423921_j403726926457_3_alg».proof.Proof.Gen.KernelIdeal.Frame.Runs
import proofs.«423921_j403726926457_3_alg».proof.Proof.Spec
import proofs.«423921_j403726926457_3_alg».proof.Proof.LibFinite
import Idealize.ShloMosaic.Lib.Pipeline.Value
import Idealize.ShloMosaic.Lib.ValueLayout
import Idealize.ShloMosaic.Lib.StableHlo.Run

noncomputable section

namespace Cert.KernelIdeal.Tables

open Idealize.ShloMosaic Idealize.ShloMosaic.TcCoe Idealize.SL.Sem Cert.KernelIdeal Cert.KernelIdeal.Gen
open Idealize.ShloMosaic.ValueIdx

/-! ## The layout operations at an entry -/

section Layout

variable {α : Type}

/-- Row `256 p + q` of the table. -/
def rowOf (p q : Fin 256) : Fin 65536 := ⟨p.val * 256 + q.val, by have := p.isLt; have := q.isLt; omega⟩

/-- The table read as `[256, 256, 2]`: entry `(p, q, v)` is entry `(256 p + q, v)` of the table, both having
    row-major position `(256 p + q) · 2 + v`. -/
theorem cast_rows (tl : S65536x2.Idx → α) (h : S65536x2.ShapeCasts S256x256x2) (p q : Fin 256) (v : Fin 2) :
    shapeCast S256x256x2 tl h (ix3 p q v) = tl (ix2 (rowOf p q) v) :=
  shapeCast_apply tl h _ _ (by
    rw [Shape.rowMajor_val_three, Shape.rowMajor_val_two]
    show (p.val * 256 + q.val) * 2 + v.val = (p.val * 256 + q.val) * 2 + v.val
    rfl)

/-- The slice of width one along the last axis starting at `o`: entry `(p, q, u)` is entry `(p, q, o + u)`. -/
theorem slice_col (X : S256x256x2.Idx → α) (o : Nat) (h : S256x256x2.Slices ![0, 0, o] S256x256x1)
    (p q : Fin 256) (u : Fin 1) (v : Fin 2) (hv : v.val = o + u.val) :
    extractStridedSlice S256x256x1 ![0, 0, o] X h (ix3 p q u) = X (ix3 p q v) :=
  extractStridedSlice_apply _ _ _ _ _ (fun ax => by
    match ax with
    | ⟨0, _⟩ => exact (Nat.zero_add _).symm
    | ⟨1, _⟩ => exact (Nat.zero_add _).symm
    | ⟨2, _⟩ => exact hv)

/-- Dropping the last axis of extent one: entry `(p, q)` is entry `(p, q, 0)`. -/
theorem cast_drop (Y : S256x256x1.Idx → α) (h : S256x256x1.ShapeCasts S256x256) (p q : Fin 256) :
    shapeCast S256x256 Y h (ix2 p q) = Y (ix3 p q (0 : Fin 1)) :=
  shapeCast_apply Y h _ _ (by
    rw [Shape.rowMajor_val_three, Shape.rowMajor_val_two]
    show (p.val * 256 + q.val) * 1 + 0 = p.val * 256 + q.val
    omega)

/-- Column `v` of the table as a 256 × 256 array: entry `(p, q)` is entry `(256 p + q, v)` of the table. -/
theorem half_apply (tl : S65536x2.Idx → α) (h1 : S65536x2.ShapeCasts S256x256x2) (o : Nat)
    (hs : S256x256x2.Slices ![0, 0, o] S256x256x1) (hc : S256x256x1.ShapeCasts S256x256)
    (p q : Fin 256) (v : Fin 2) (hv : v.val = o) :
    shapeCast S256x256 (extractStridedSlice S256x256x1 ![0, 0, o] (shapeCast S256x256x2 tl h1) hs) hc (ix2 p q)
      = tl (ix2 (rowOf p q) v) := by
  rw [cast_drop, slice_col _ o hs p q 0 v (by simpa using hv), cast_rows]

/-- Two 256 × 256 arrays side by side, read in the left half. -/
theorem cat_left (A B : S256x256.Idx → α) (h : Shape.Concatenates [S256x256, S256x256] S256x512 1)
    (p : Fin 256) (j : Fin 512) (q : Fin 256) (hq : q.val = j.val) :
    concatenate S256x512 1 [⟨S256x256, A⟩, ⟨S256x256, B⟩] h (ix2 p j) = A (ix2 p q) :=
  concatenate_pair_apply_left (1 : Fin S256x512.rank) A B h (ix2 p j) rfl (ix2 p q) (fun b => by
    match b with
    | ⟨0, _⟩ => rfl
    | ⟨1, _⟩ => exact hq)

/-- Two 256 × 256 arrays side by side, read in the right half. -/
theorem cat_right (A B : S256x256.Idx → α) (h : Shape.Concatenates [S256x256, S256x256] S256x512 1)
    (p : Fin 256) (j : Fin 512) (q : Fin 256) (hq : q.val + 256 = j.val) :
    concatenate S256x512 1 [⟨S256x256, A⟩, ⟨S256x256, B⟩] h (ix2 p j) = B (ix2 p q) :=
  concatenate_pair_apply_right (1 : Fin S256x512.rank) A B h (ix2 p j) rfl rfl (ix2 p q) (fun b hb => by
    match b with
    | ⟨0, _⟩ => rfl
    | ⟨1, _⟩ => exact absurd rfl hb) hq

end Layout

/-- The table laid out by high byte, as the operations build it: the two columns of the table read as
    `[256, 256, 2]`, each as a 256 × 256 array, side by side. -/
abbrev hiTerm (h1 : S65536x2.ShapeCasts S256x256x2) (hs0 : S256x256x2.Slices ![0, 0, 0] S256x256x1)
    (hs1 : S256x256x2.Slices ![0, 0, 1] S256x256x1) (hc : S256x256x1.ShapeCasts S256x256)
    (hcat : Shape.Concatenates [S256x256, S256x256] S256x512 1) (tl : FVec Ideal S65536x2 .f32) :
    FVec Ideal S256x512 .f32 :=
  concatenate S256x512 1
    [⟨S256x256, shapeCast S256x256 (extractStridedSlice S256x256x1 ![0, 0, 0] (shapeCast S256x256x2 tl h1) hs0) hc⟩,
     ⟨S256x256, shapeCast S256x256 (extractStridedSlice S256x256x1 ![0, 0, 1] (shapeCast S256x256x2 tl h1) hs1) hc⟩] hcat

/-- The operations' table is `Spec.tab3`: at `(p, j)` both are the table's entry `(256 p + j % 256, j / 256)`. -/
theorem hiTerm_eq (h1 : S65536x2.ShapeCasts S256x256x2) (hs0 : S256x256x2.Slices ![0, 0, 0] S256x256x1)
    (hs1 : S256x256x2.Slices ![0, 0, 1] S256x256x1) (hc : S256x256x1.ShapeCasts S256x256)
    (hcat : Shape.Concatenates [S256x256, S256x256] S256x512 1) (tl : FVec Ideal S65536x2 .f32) :
    (hiTerm h1 hs0 hs1 hc hcat tl : S256x512.Idx → EReal) = Cert.Spec.tab3 tl := by
  funext i
  obtain ⟨p, j, rfl⟩ : ∃ (p : Fin 256) (j : Fin 512), i = ix2 p j := ⟨i 0, i 1, eq_ix2 i⟩
  have hj := j.isLt
  by_cases hlt : j.val < 256
  · -- the left half: column 0 at `(p, j)`
    rw [hiTerm, cat_left _ _ hcat p j ⟨j.val, hlt⟩ rfl, half_apply tl h1 0 hs0 hc p ⟨j.val, hlt⟩ 0 rfl]
    unfold Cert.Spec.tab3
    refine congrArg tl (congrArg₂ ix2 (Fin.ext ?_) (Fin.ext ?_))
    · show p.val * 256 + j.val = p.val * 256 + j.val % 256
      omega
    · show 0 = j.val / 256
      omega
  · -- the right half: column 1 at `(p, j - 256)`
    rw [hiTerm, cat_right _ _ hcat p j ⟨j.val - 256, by omega⟩ (by show j.val - 256 + 256 = j.val; omega),
      half_apply tl h1 1 hs1 hc p ⟨j.val - 256, by omega⟩ 1 rfl]
    unfold Cert.Spec.tab3
    refine congrArg tl (congrArg₂ ix2 (Fin.ext ?_) (Fin.ext ?_))
    · show p.val * 256 + (j.val - 256) = p.val * 256 + j.val % 256
      omega
    · show 1 = j.val / 256
      omega

/-! ## What the region finds -/

variable (m : (ℓ : Loc nD τ sig) → Buf (Elt Ideal) ℓ)

/-- The operations' table of the argument table core `c` holds. -/
abbrev hiOf (c : Dev nD) : FVec Ideal S256x512 .f32 :=
  hiTerm Facts₀.shapeCasts_S65536x2_S256x256x2 Facts₀.slices_S256x256x2_S256x256x1_0_0_0
    Facts₀.slices_S256x256x2_S256x256x1_0_0_1 Facts₀.shapeCasts_S256x256x1_S256x256
    Facts₀.concatenates_S256x256_S256x256_S256x512_d1 (m ((c : Thread nD τ).loc main_arg0))

/-- The first table the region finds is the operations' table in the narrower float format. -/
theorem hi_run (c : Dev nD) :
    (V (F := Ideal) m c main_v6 : S256x512.Idx → EReal)
      = (truncf .bf16 (hiOf m c) Facts₀.bitsLt_bf16_f32 : FVec Ideal S256x512 .bf16) := by
  dsimp only [Gen.V, Gen.hostOps0]
  after_results
  rfl

/-- The second table the region finds is the operations' table minus its copy that went through the narrower float
    format and back, in the narrower format. -/
theorem lo_run (c : Dev nD) :
    (V (F := Ideal) m c main_v9 : S256x512.Idx → EReal)
      = (truncf .bf16 (subf (hiOf m c)
          (extf .f32 (truncf .bf16 (hiOf m c) Facts₀.bitsLt_bf16_f32 : FVec Ideal S256x512 .bf16) Facts₀.bitsLt_bf16_f32))
          Facts₀.bitsLt_bf16_f32 : FVec Ideal S256x512 .bf16) := by
  dsimp only [Gen.V, Gen.hostOps0]
  after_results
  rfl

/-- INTERFACE. The first table the region finds is the argument table laid out by high byte. -/
theorem tab_hi (c : Dev nD) :
    (V (F := Ideal) m c main_v6 : S256x512.Idx → EReal) = Cert.Spec.tab3 (m ((c : Thread nD τ).loc main_arg0)) := by
  rw [hi_run]
  funext i
  rw [truncf_apply]
  exact congrFun (hiTerm_eq _ _ _ _ _ _) i

/-- INTERFACE. The second table the region finds is zero, the argument table's entries being real numbers. -/
theorem tab_lo (c : Dev nD) (hfin : Cert.Fin.AllFin (m ((c : Thread nD τ).loc main_arg0) : S65536x2.Idx → EReal)) :
    (V (F := Ideal) m c main_v9 : S256x512.Idx → EReal) = fun _ => (0 : EReal) := by
  rw [lo_run]
  funext i
  -- the changes of float format are the identity: the entry is `x - x` with `x` an entry of the laid-out table
  rw [truncf_apply, subf_apply, extf_apply, truncf_apply]
  rw [show (hiOf m c : S256x512.Idx → EReal) i = Cert.Spec.tab3 (m ((c : Thread nD τ).loc main_arg0)) i from
    congrFun (hiTerm_eq _ _ _ _ _ _) i]
  -- an entry of the laid-out table is an entry of the table, a real number `r`, and `r - r = 0`
  obtain ⟨r, hr⟩ : Cert.Fin.IsFin (Cert.Spec.tab3 (m ((c : Thread nD τ).loc main_arg0)) i) := hfin _
  rw [hr, ← EReal.coe_sub, sub_self, EReal.coe_zero]

end Cert.KernelIdeal.Tables

end
-- ==== Proof.KernelValue.lean ====
/-
  The kernel's result array is the specification's function. Grid point `t` of 1024 works on columns
  `256 t … 256 t + 255`: its code-word block is those columns of the code array, its two tables are the whole tables
  (`Spec.tab3` of the argument table, and zero), and what it writes back is, by `KRun.out_eq`, the table by high
  byte read at `(e / 256, 256 v + e % 256)` for the code word `e` under each entry — which is the argument table at
  `(e, v)` (`Spec.tab3_split`): the block of `Spec.lookup` under it. The 1024 blocks tile the array.
-/
import proofs.«423921_j403726926457_3_alg».proof.Proof.KIValue
import proofs.«423921_j403726926457_3_alg».proof.Proof.KernelRun
import proofs.«423921_j403726926457_3_alg».proof.Proof.Tables

set_option maxRecDepth 16384

noncomputable section

namespace Cert.KernelIdeal.KValue

open Idealize.ShloMosaic Idealize.ShloMosaic.TcCoe Idealize.SL.Sem Idealize.ShloMosaic.ValueIdx
open Idealize.ShloMosaic.Pipeline (Dat)
open Cert.KernelIdeal Cert.KernelIdeal.Gen Cert.KernelIdeal.GenP Cert.KernelIdeal.ValueP Cert.KernelIdeal.Pieces

variable (m : (ℓ : Loc nD τ sig) → Buf (Elt Ideal) ℓ) (ρ : Dev nD → PrngReg)

/-- The argument table and the code words, as the run finds them. -/
abbrev tl (c : Dev nD) : S65536x2.Idx → EReal := m ((c : Thread nD τ).loc main_arg0)
abbrev enc (c : Dev nD) : IVec S128x262144 32 := m ((c : Thread nD τ).loc main_arg1)

/-- Where each window's block sits at point `t`, decided over the 1024 points: the code words' and the result's blocks
    move along the columns with `t`; the two tables' blocks are the whole tables. -/
theorem idx_facts : ∀ t : Fin cfg0.N,
    win0_0.index t (0 : Fin 2) = 0 ∧ win0_0.index t (1 : Fin 2) = t.val
    ∧ win0_1.index t (0 : Fin 2) = 0 ∧ win0_1.index t (1 : Fin 2) = 0
    ∧ win0_2.index t (0 : Fin 2) = 0 ∧ win0_2.index t (1 : Fin 2) = 0
    ∧ win0_3.index t (0 : Fin 3) = 0 ∧ win0_3.index t (1 : Fin 3) = 0 ∧ win0_3.index t (2 : Fin 3) = t.val :=
  (by decide +kernel : ∀ t : Fin grid0.N, _)

theorem pt_lt (t : Fin cfg0.N) : t.val < 1024 := lt_of_lt_of_eq t.isLt N_0

/-- The three input blocks at point `t`, at their literal types. -/
abbrev eblk (c : Dev nD) (t : Fin cfg0.N) : Vec Ideal S128x256 .i32 := iblk m c 0 t
abbrev hblk (c : Dev nD) (t : Fin cfg0.N) : Vec Ideal S256x512 .bf16 := iblk m c 1 t
abbrev lblk (c : Dev nD) (t : Fin cfg0.N) : Vec Ideal S256x512 .bf16 := iblk m c 2 t

/-- Column `256 t + q` of the array, for a column `q` of point `t`'s block. -/
abbrev col (t : Fin cfg0.N) (q : Fin 256) : Fin 262144 := ⟨256 * t.val + q.val, by have := pt_lt t; omega⟩

/-- The code-word block at point `t` is columns `256 t …` of the code array. -/
theorem eblk_apply (c : Dev nD) (t : Fin cfg0.N) (R : Fin 128) (q : Fin 256) :
    eblk m c t (ix2 R q) = enc m c (ix2 R (col t q)) := by
  show V m c main_arg1 (((cfg0.win 0).blk t).view.emb (ix2 R q)) = m ((c : Thread nD τ).loc main_arg1) (ix2 R (col t q))
  rw [V_main_arg1]
  congr 1
  funext a
  refine Fin.ext ?_
  obtain ⟨e0, e1, -⟩ := idx_facts t
  match a with
  | ⟨0, _⟩ => show win0_0.index t (0 : Fin 2) * 128 + 1 * R.val = R.val; omega
  | ⟨1, _⟩ => show win0_0.index t (1 : Fin 2) * 256 + 1 * q.val = 256 * t.val + q.val; omega

/-- The first table's block is the whole table by high byte. -/
theorem hblk_eq (c : Dev nD) (t : Fin cfg0.N) : hblk m c t = Cert.Spec.tab3 (tl m c) := by
  refine Eq.trans ?_ (Cert.KernelIdeal.Tables.tab_hi m c)
  funext y
  show V m c main_v6 (((cfg0.win 1).blk t).view.emb y) = V m c main_v6 y
  congr 1
  funext a
  refine Fin.ext ?_
  obtain ⟨-, -, e2, e3, -⟩ := idx_facts t
  match a with
  | ⟨0, _⟩ => show win0_1.index t (0 : Fin 2) * 256 + 1 * (y 0).val = (y 0).val; omega
  | ⟨1, _⟩ => show win0_1.index t (1 : Fin 2) * 512 + 1 * (y 1).val = (y 1).val; omega

/-- The second table's block is zero, the argument table's entries being real numbers. -/
theorem lblk_eq (c : Dev nD) (t : Fin cfg0.N) (hfin : Cert.Fin.AllFin (tl m c)) (y : S256x512.Idx) : lblk m c t y = 0 := by
  have h := congrFun (Cert.KernelIdeal.Tables.tab_lo m c hfin)
  show (V m c main_v9 : S256x512.Idx → EReal) (((cfg0.win 2).blk t).view.emb y) = (0 : EReal)
  exact h _

/-- WHAT POINT `t` WRITES BACK is block `t` of `Spec.lookup` of the arguments. -/
theorem flushed_eq (c : Dev nD) (hfin : Cert.Fin.AllFin (tl m c)) (hr : Cert.Spec.InRange (enc m c)) (t : Fin cfg0.N) :
    (dats m 0 c).flushed 3 t
      = ((cfg0.win 3).blk t).view.read (Elt Ideal) (Cert.Spec.lookup (tl m c) (enc m c)) := by
  have hx0 : ∀ j, (eblk m c t j).toNat < 65536 := by
    intro j
    obtain ⟨R, q, rfl⟩ : ∃ (R : Fin 128) (q : Fin 256), j = ix2 R q := ⟨j 0, j 1, eq_ix2 j⟩
    rw [eblk_apply]
    exact hr _
  have hx2 : ∀ j, lblk m c t j = 0 := lblk_eq m c t hfin
  rw [flushed3_A, Cert.KernelIdeal.KRun.out_eq c (grid0.coords t) (ms0_0 t) (hs0_0 t) (ms0_1 t) (hs0_1 t) (ms0_2 t) (hs0_2 t)
    (ms0_3 t) (hs0_3 t) (eblk m c t) (hblk m c t) (lblk m c t) hx0 hx2]
  funext j
  obtain ⟨v, R, q, rfl⟩ : ∃ (v : Fin 2) (R : Fin 128) (q : Fin 256), j = ix3 v R q := ⟨j 0, j 1, j 2, eq_ix3 j⟩
  show blockFn (eblk m c t) (hblk m c t) (ix3 v R q)
    = Cert.Spec.lookup (tl m c) (enc m c) (((cfg0.win 3).blk t).view.emb (ix3 v R q))
  have hemb : ((cfg0.win 3).blk t).view.emb (ix3 v R q) = ix3 v R (col t q) := by
    funext a
    refine Fin.ext ?_
    obtain ⟨-, -, -, -, -, -, e6, e7, e8⟩ := idx_facts t
    match a with
    | ⟨0, _⟩ => show win0_3.index t (0 : Fin 3) * 2 + 1 * v.val = v.val; omega
    | ⟨1, _⟩ => show win0_3.index t (1 : Fin 3) * 128 + 1 * R.val = R.val; omega
    | ⟨2, _⟩ => show win0_3.index t (2 : Fin 3) * 256 + 1 * q.val = 256 * t.val + q.val; omega
  rw [hemb, blockFn_apply, hblk_eq, Cert.Spec.lookup_apply]
  have hw := hr (ix2 R (col t q))
  have he : word (eblk m c t) R q = (enc m c (ix2 R (col t q))).toNat := by
    unfold word; rw [eblk_apply]
  refine Cert.Spec.tab3_split (tl m c) (Cert.Spec.row (enc m c) R (col t q)) v _ _ ?_ ?_
  · show word (eblk m c t) R q / 256 % 256 = (enc m c (ix2 R (col t q))).toNat % 65536 / 256
    rw [he]; omega
  · show (256 * v.val + word (eblk m c t) R q % 256) % 512 = 256 * v.val + (enc m c (ix2 R (col t q))).toNat % 65536 % 256
    rw [he]; have := v.isLt; omega

/-- An index of the array is in point `t`'s block iff each coordinate is in the block's range on its axis. -/
theorem mem_blk3 (t : Fin cfg0.N) (i : S2x128x262144.Idx) :
    i ∈ ((cfg0.win 3).blk t).view.set ↔ ∀ a : Fin 3, win0_3.index t a * S2x128x256.size a ≤ (i a).val
      ∧ (i a).val < win0_3.index t a * S2x128x256.size a + S2x128x256.size a := by
  show i ∈ ((View.whole main_v10).slice (win0_3.rect t)).set ↔ _
  rw [View.set_slice_whole, Rect.mem_set_unit]
  exact Iff.rfl

/-- Every index of the array is in the block of the point its column falls to. -/
theorem cover (i : S2x128x262144.Idx) :
    ∃ t : Fin cfg0.N, (cfg0.win 3).flush t = true ∧ i ∈ ((cfg0.win 3).blk t).view.set := by
  have h0 : (i 0).val < 2 := (i 0).isLt
  have h1 : (i 1).val < 128 := (i 1).isLt
  have h2 : (i 2).val < 262144 := (i 2).isLt
  have hN : (i 2).val / 256 < cfg0.N := lt_of_lt_of_eq (show (i 2).val / 256 < 1024 by omega) N_0.symm
  refine ⟨⟨(i 2).val / 256, hN⟩, flush0_3 _, ?_⟩
  rw [mem_blk3]
  obtain ⟨-, -, -, -, -, -, e6, e7, e8⟩ := idx_facts ⟨(i 2).val / 256, hN⟩
  intro a
  match a with
  | ⟨0, _⟩ =>
    show win0_3.index ⟨(i 2).val / 256, hN⟩ (0 : Fin 3) * 2 ≤ (i 0).val
      ∧ (i 0).val < win0_3.index ⟨(i 2).val / 256, hN⟩ (0 : Fin 3) * 2 + 2
    omega
  | ⟨1, _⟩ =>
    show win0_3.index ⟨(i 2).val / 256, hN⟩ (1 : Fin 3) * 128 ≤ (i 1).val
      ∧ (i 1).val < win0_3.index ⟨(i 2).val / 256, hN⟩ (1 : Fin 3) * 128 + 128
    omega
  | ⟨2, _⟩ =>
    show win0_3.index ⟨(i 2).val / 256, hN⟩ (2 : Fin 3) * 256 ≤ (i 2).val
      ∧ (i 2).val < win0_3.index ⟨(i 2).val / 256, hN⟩ (2 : Fin 3) * 256 + 256
    have e8' : win0_3.index ⟨(i 2).val / 256, hN⟩ (2 : Fin 3) = (i 2).val / 256 := e8
    omega

/-- THE ARRAY after the run is `Spec.lookup` of the arguments. -/
theorem final3 (c : Dev nD) (hfin : Cert.Fin.AllFin (tl m c)) (hr : Cert.Spec.InRange (enc m c)) :
    (dats m 0 c).arrAt 3 cfg0.N = Cert.Spec.lookup (tl m c) (enc m c) :=
  (dats m 0 c).arrAt_eq_of_cover 3 (Cert.Spec.lookup (tl m c) (enc m c)) (fun t _ => flushed_eq m c hfin hr t) cover

/-- The kernel's run with its result named: every weakly fair execution ends with the result array at `Spec.lookup` of
    the arguments, and the arguments as they were. -/
theorem run (hfin : ∀ c : Dev nD, Cert.Fin.AllFin (tl m c)) (hr : ∀ c : Dev nD, Cert.Spec.InRange (enc m c)) :
    θ_run defs (onTc (τ := τ) (main (F := Ideal))) ⟨m, fun _ => 0, ρ⟩ fun r => ∀ c : Dev nD,
      r.2.mem ((c : Thread nD τ).loc main_v10) = Cert.Spec.lookup (tl m c) (enc m c)
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun r h c => ⟨(h c).1.trans (final3 m c (hfin c) (hr c)), (h c).2⟩) (run_blocks m ρ)

end Cert.KernelIdeal.KValue

end
-- ==== Proof.RefValue.lean ====
/-
  The reference: its run, and its result as the specification's function. The reference adds 65536 to a negative code
  word, marks the words that are then row numbers, reads the table at each word (the read itself keeps the word inside
  the table), puts a fill value where the mark is clear, and moves the column axis to the front. Where every code word
  is a row number nothing is added, every mark is set, and entry `(v, t, n)` is the table's entry at row `enc (t, n)`,
  column `v`.
-/
import proofs.«423921_j403726926457_3_alg».proof.Proof.Gen.ReferenceIdeal
import proofs.«423921_j403726926457_3_alg».proof.Proof.Spec
import Idealize.ShloMosaic.Lib.StableHlo.Run
import Idealize.ShloMosaic.Lib.Pipeline.Value
import Idealize.ShloMosaic.Lib.ValueLayout
import Idealize.ShloMosaic.Lib.ReduceAll
import Idealize.ShloMosaic.Lib.StableHlo.Predicate

noncomputable section

namespace Cert.ReferenceIdeal.RefValue

open Cert.ReferenceIdeal Cert.ReferenceIdeal.Gen Idealize.ShloMosaic Idealize.ShloMosaic.TcCoe Idealize.SL.Sem
  Idealize.ShloMosaic.StableHlo

variable {F : FTy → Type} [FloatOps F]

/-- The code words after the wrap of the negative ones: `enc + 65536` where `enc < 0` (read signed), else `enc`. -/
def wrapped (enc : IVec S128x262144 32) : IVec S128x262144 32 :=
  select (cmpi .slt enc (broadcastInDim S128x262144 ![] bcast_S_S128x262144 (constantI S_ 32 0#32)))
    (addi enc (broadcastInDim S128x262144 ![] bcast_S_S128x262144 (constantI S_ 32 65536#32))) enc

/-- The wrapped code words with a unit axis appended: the start indices of the table read, one per `(t, n)`. -/
def starts (enc : IVec S128x262144 32) : IVec S128x262144x1 32 :=
  broadcastInDim S128x262144x1 ![0, 1] bcast_S128x262144_S128x262144x1_0_1 (wrapped enc)

/-- The mark at `(t, n)`: `1` where the wrapped code word is a row number, `0 ≤ · ≤ 65535` read signed — the conjunction of the
    two comparisons, taken over the unit axis. -/
def marks (enc : IVec S128x262144 32) : IVec S128x262144 1 :=
  Host.reduce IntOp.andi
    (andi (cmpi .sge (starts enc) (broadcastInDim S128x262144x1 ![] bcast_S_S128x262144x1 (constantI S_ 32 0#32)))
      (cmpi .sle (starts enc) (broadcastInDim S128x262144x1 ![0, 1, 2] bcast_S1x1x1_S128x262144x1_0_1_2
        (broadcastInDim S1x1x1 ![2] bcast_S1_S1x1x1_2 (constantI S1 32 65535#32)))))
    (constantI S_ 1 1#1) reducesTo_S128x262144x1_S128x262144_d2 h_S_

/-- The reference's result as ONE term of its two arguments, its operations composed: the table read at the start indices
    (each start kept inside the table by the read itself), the fill value where the mark is clear, and the column axis
    moved to the front. -/
def refOut (tl : FVec F S65536x2 .f32) (enc : IVec S128x262144 32) : FVec F S2x128x262144 .f32 :=
  transpose S2x128x262144 [2, 0, 1]
    (select (broadcastInDim S128x262144x2 ![0, 1] bcast_S128x262144_S128x262144x2_0_1 (marks enc))
      (Host.gather gather_S65536x2_S128x262144x1_S128x262144x2_2_0_n_n_0_2_12 tl (starts enc))
      (broadcastInDim S128x262144x2 ![] bcast_S_S128x262144x2 (constant S_ .f32 0x7FC00000#32)))
    transposes_S128x262144x2_S2x128x262144_2_0_1

/-! ## The run

The program is a straight line once its two calls are opened: the callee's twenty-two operations and, inside it, the inner
callee's one select, each over the buffers its call names, then the transpose. Run in order from any contents of the
buffers, the line leaves `refOut` of the two arguments in the result buffer and the arguments as they were. -/

/-- The reference's twenty-four operations in order: the callee's and the inner callee's stand at their calls, over the
    buffers those calls name. -/
abbrev ops : List (HloOp τ sig (Elt F)) :=
  [ TRef.nullary main_call0.c (constantI S_ 32 0#32),
    TRef.unary main_call0.c main_call0.v0 (broadcastInDim S128x262144 ![] bcast_S_S128x262144),
    TRef.binary (.of main_arg1) main_call0.v0 main_call0.v1 (cmpi .slt),
    TRef.nullary main_call0.c_0 (constantI S_ 32 65536#32),
    TRef.unary main_call0.c_0 main_call0.v2 (broadcastInDim S128x262144 ![] bcast_S_S128x262144),
    TRef.binary (.of main_arg1) main_call0.v2 main_call0.v3 addi,
    TRef.ternary main_call0.v1 main_call0.v3 (.of main_arg1) main_call0.call0.v0 select,
    TRef.unary main_call0.call0.v0 main_call0.v5 (broadcastInDim S128x262144x1 ![0, 1] bcast_S128x262144_S128x262144x1_0_1),
    TRef.nullary main_call0.c_1 (constantI S1 32 65535#32),
    TRef.nullary main_call0.c_2 (constantI S_ 32 0#32),
    TRef.unary main_call0.c_2 main_call0.v6 (broadcastInDim S128x262144x1 ![] bcast_S_S128x262144x1),
    TRef.binary main_call0.v5 main_call0.v6 main_call0.v7 (cmpi .sge),
    TRef.unary main_call0.c_1 main_call0.v8 (broadcastInDim S1x1x1 ![2] bcast_S1_S1x1x1_2),
    TRef.unary main_call0.v8 main_call0.v9 (broadcastInDim S128x262144x1 ![0, 1, 2] bcast_S1x1x1_S128x262144x1_0_1_2),
    TRef.binary main_call0.v5 main_call0.v9 main_call0.v10 (cmpi .sle),
    TRef.binary main_call0.v7 main_call0.v10 main_call0.v11 andi,
    TRef.nullary main_call0.c_3 (constantI S_ 1 1#1),
    TRef.binary main_call0.v11 main_call0.c_3 main_call0.v12 (fun x v => Host.reduce IntOp.andi x v reducesTo_S128x262144x1_S128x262144_d2 h_S_),
    TRef.binary (.of main_arg0) main_call0.v5 main_call0.v13 (fun x i => Host.gather gather_S65536x2_S128x262144x1_S128x262144x2_2_0_n_n_0_2_12 x i),
    TRef.unary main_call0.v12 main_call0.v14 (broadcastInDim S128x262144x2 ![0, 1] bcast_S128x262144_S128x262144x2_0_1),
    TRef.nullary main_call0.cst (constant S_ .f32 0x7FC00000#32),
    TRef.unary main_call0.cst main_call0.v15 (broadcastInDim S128x262144x2 ![] bcast_S_S128x262144x2),
    TRef.ternary main_call0.v14 main_call0.v13 main_call0.v15 main_call0.v16 select,
    unary main_v0 main_v1 ((transpose S2x128x262144 [2, 0, 1] · transposes_S128x262144x2_S2x128x262144_2_0_1) : (⟨S128x262144x2, .f32⟩ : BufTy).Contents (Elt F) → (⟨S2x128x262144, .f32⟩ : BufTy).Contents (Elt F)) ]

set_option maxRecDepth 1024 in
/-- The program is that straight line: the two callees opened at their calls, the sequencing re-associated. -/
theorem main_eq (c : Dev nD) : main (F := F) c = seq ops := by
  simp only [main, fn_take.body, fn_where.body, seq, bind_assoc, pure_bind]

/-- The signature scopes no buffer and no semaphore: every buffer is a tensor value's. -/
theorem scopedRefs_eq : (Finset.univ.filter fun b : Ref sig .tc => b.isScoped) = ∅ := by decide
theorem scopedSems_eq : (Finset.univ.filter fun sm : SemLoc sig => sm.isScoped .tc) = ∅ := by decide

/-- Every operation touches buffers of the one core only. -/
theorem ops_sub : (ops : List (HloOp τ sig (Elt F))).Forall fun op => op.bufs ⊆ tcRefs τ sig :=
  ⟨nullary_bufs_sub .., unary_bufs_sub .., binary_bufs_sub .., nullary_bufs_sub .., unary_bufs_sub .., binary_bufs_sub ..,
    ternary_bufs_sub .., unary_bufs_sub .., nullary_bufs_sub .., nullary_bufs_sub .., unary_bufs_sub .., binary_bufs_sub ..,
    unary_bufs_sub .., unary_bufs_sub .., binary_bufs_sub .., binary_bufs_sub .., nullary_bufs_sub .., binary_bufs_sub ..,
    binary_bufs_sub .., unary_bufs_sub .., nullary_bufs_sub .., unary_bufs_sub .., ternary_bufs_sub .., unary_bufs_sub ..⟩

/-- A value written to a typed reference's buffer and read back at the value's type is the value. -/
private theorem ofBuf_toBuf {Val : EltTy → Type} {T : BufTy} (x : TRef sig T) (v : T.Contents Val) : x.ofBuf (x.toBuf v) = v := by
  obtain ⟨r, rfl, _, _⟩ := x
  rfl

/-- At the two arguments' and the call result's literal references the transport is the identity. -/
private theorem ofBuf_arg0 {Val : EltTy → Type} (V : Valuation τ sig Val) :
    (TRef.of main_arg0 : TRef sig ⟨S65536x2, .f32⟩).ofBuf (V (Proc.devRef .tc main_arg0)) = V (Proc.devRef .tc main_arg0) := rfl
private theorem ofBuf_arg1 {Val : EltTy → Type} (V : Valuation τ sig Val) :
    (TRef.of main_arg1 : TRef sig ⟨S128x262144, .i32⟩).ofBuf (V (Proc.devRef .tc main_arg1)) = V (Proc.devRef .tc main_arg1) := rfl
private theorem toBuf_v0 {Val : EltTy → Type} (v : (⟨S128x262144x2, .f32⟩ : BufTy).Contents Val) :
    (TRef.of main_v0 : TRef sig ⟨S128x262144x2, .f32⟩).toBuf v = v := rfl

/-- The fold of the operations at the result buffer is `refOut` of the two argument buffers' contents. -/
theorem out_eq (V : Valuation τ sig (Elt F)) :
    after ops V (main_v1 : DevRef τ sig) = refOut (V (main_arg0 : DevRef τ sig)) (V (main_arg1 : DevRef τ sig)) := by
  after_results
  simp only [ofBuf_toBuf, ofBuf_arg0, ofBuf_arg1, toBuf_v0]
  rfl

/-- No operation of the line writes an argument's buffer: both keep their contents. -/
theorem arg0_eq (V : Valuation τ sig (Elt F)) :
    after ops V (main_arg0 : DevRef τ sig) = V (main_arg0 : DevRef τ sig) := by
  after_results

theorem arg1_eq (V : Valuation τ sig (Elt F)) :
    after ops V (main_arg1 : DevRef τ sig) = V (main_arg1 : DevRef τ sig) := by
  after_results

/-- INTERFACE. Every weakly fair execution of the reference ends with its result at `refOut` of the arguments, and the
    arguments as they were. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v1)
        = refOut (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1) := by
  exact (θ_run defs _ _).mono (fun _ h c => ⟨(h c main_v1).trans (out_eq _), (h c main_arg0).trans (arg0_eq _),
      (h c main_arg1).trans (arg1_eq _)⟩)
    (run_seq scopedRefs_eq scopedSems_eq defs main (fun _ => ops) main_eq (fun _ => ops_sub) m ρ)

/-! ## The result at an index

Where every code word is a row number: the signed test `enc < 0` fails, so the wrap leaves the word; both range tests
hold, so every mark is `1` and the fill value is nowhere taken; and the table read at `(t, n, v)` takes row
`min (start read signed) 65535`, which is the word itself, and column `v`. -/

section Value

open Idealize.ShloMosaic.ValueIdx Idealize.ShloMosaic.StableHlo.Predicate

/-! ### Words: a word below 2³¹ reads the same signed and unsigned -/

/-- Read signed and clamped at zero it is its unsigned value. -/
private theorem toInt_toNat_of_lt {a : BitVec 32} (ha : a.toNat < 2 ^ 31) : a.toInt.toNat = a.toNat := by
  rw [toInt_eq_toNat_of_lt ha, Int.toNat_natCast]

/-- It is not below zero, read signed … -/
private theorem slt_zero_of_small {a : BitVec 32} (ha : a.toNat < 2 ^ 31) : IntOp.cmpi .slt a 0#32 = 0#1 := by
  refine eq_zero_of_ne_one fun h => ?_
  have := (slt_iff_toNat ha (by decide)).1 h
  simp at this

/-- … it is at least zero … -/
private theorem sge_zero_of_small {a : BitVec 32} (ha : a.toNat < 2 ^ 31) : IntOp.cmpi .sge a 0#32 = 1#1 :=
  (sge_iff_toNat ha (by decide)).2 (Nat.zero_le _)

/-- … and a row number is at most the last row's. -/
private theorem sle_max_of_lt {a : BitVec 32} (ha : a.toNat < 65536) : IntOp.cmpi .sle a 65535#32 = 1#1 :=
  (sle_iff_toNat (by omega) (by decide)).2 (by show a.toNat ≤ 65535; omega)

/-! ### A conjunction of ones is one -/

/-- A left fold by `and` from `1` over words that are all `1` is `1`. -/
private theorem foldl_andi_one {ι : Type} (f : ι → BitVec 1) :
    ∀ l : List ι, (∀ n ∈ l, f n = 1#1) → l.foldl (fun r n => IntOp.andi r (f n)) 1#1 = 1#1
  | [], _ => rfl
  | a :: l, h => by
    rw [List.foldl_cons, h a List.mem_cons_self, show IntOp.andi 1#1 1#1 = 1#1 from by decide]
    exact foldl_andi_one f l fun n hn => h n (List.mem_cons_of_mem _ hn)

/-- A reduction by `and` from the initial value `1` of an array of ones is `1` at every result index. -/
private theorem reduce_andi_of_all {s t u : Shape} {axes : List (Fin s.rank)} (x : s.Idx → BitVec 1) (init : u.Idx → BitVec 1)
    (h : s.ReducesTo axes t) (hu : 0 < u.numel) (hinit : init (Shape.Idx.first hu) = 1#1) (hx : ∀ i, x i = 1#1) (j : t.Idx) :
    Host.reduce IntOp.andi x init h hu j = 1#1 := by
  rw [Host.reduce_eq_foldl, hinit]
  exact foldl_andi_one x _ fun i _ => hx i

/-! ### Rows of a table read at an array of start indices

The dimension numbers of `x[idx]` along axis 0 of a table `[N, K]` at start indices `[R, C, 1]`: axis 0 collapsed (slice
size 1) and named by the start index map, axis 1 kept whole (slice size `K`) as the result's last axis. Result entry
`(t, n, v)` is the table's at row `min (idx (t, n, 0) read signed) (N − 1)`, column `v`: on axis 0 the operand index is the
clamped start (no batching axis, and a collapsed axis has no offset), on axis 1 it is the offset `v` (no start there). -/

/-- Those dimension numbers; their conditions `wf` are decided on a program's literal shapes. -/
private abbrev rowDims (N K R C : Nat)
    (wf : GatherDims.WF ⟨2, ![N, K]⟩ ⟨3, ![R, C, 1]⟩ ⟨3, ![R, C, K]⟩ [2] [0] [] [0] [] 2 ![1, K]) :
    GatherDims ⟨2, ![N, K]⟩ ⟨3, ![R, C, 1]⟩ ⟨3, ![R, C, K]⟩ where
  offsetDims := [2]
  collapsedSliceDims := [0]
  operandBatchingDims := []
  startIndicesBatchingDims := []
  startIndexMap := [0]
  indexVectorDim := 2
  sliceSizes := ![1, K]
  wf := wf

/-- The read at `(t, n, v)`. -/
private theorem gather_row_apply {α : Type} {N K R C w : Nat} (hN : 0 < N)
    (wf : GatherDims.WF ⟨2, ![N, K]⟩ ⟨3, ![R, C, 1]⟩ ⟨3, ![R, C, K]⟩ [2] [0] [] [0] [] 2 ![1, K])
    (x : (⟨2, ![N, K]⟩ : Shape).Idx → α) (idx : IVec ⟨3, ![R, C, 1]⟩ w) (t : Fin R) (n : Fin C) (v : Fin K) :
    Host.gather (rowDims N K R C wf) x idx (ix3 t n v)
      = x (ix2 ⟨min (idx (ix3 t n (0 : Fin 1))).toInt.toNat (N - 1), by omega⟩ v) := by
  unfold Host.gather
  congr 1
  funext a
  refine Fin.ext ?_
  match a with
  | ⟨0, _⟩ =>
    show (rowDims N K R C wf).start (ix3 t n v) idx 0 + (rowDims N K R C wf).batchCoord (ix3 t n v) 0
      + (rowDims N K R C wf).offCoord (ix3 t n v) 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ (rowDims N K R C wf).startIndexMap from List.mem_singleton.mpr rfl)]
    have hsi : (rowDims N K R C wf).siIdx (ix3 t n v) ⟨List.idxOf (0 : Fin 2) (rowDims N K R C wf).startIndexMap,
        List.idxOf_lt_length_iff.2 (List.mem_singleton.mpr rfl)⟩ = ix3 t n (0 : Fin 1) := by
      funext b; refine Fin.ext ?_
      match b with
      | ⟨0, _⟩ => rfl
      | ⟨1, _⟩ => rfl
      | ⟨2, _⟩ => rfl
    rw [hsi]
    rfl
  | ⟨1, _⟩ =>
    show (rowDims N K R C wf).start (ix3 t n v) idx 1 + (rowDims N K R C wf).batchCoord (ix3 t n v) 1
      + (rowDims N K R C wf).offCoord (ix3 t n v) 1 = v.val
    rw [GatherDims.batchCoord_eq_zero _ _ _ List.not_mem_nil]
    have hs : (rowDims N K R C wf).start (ix3 t n v) idx 1 = 0 := by
      unfold GatherDims.start
      rw [dif_neg (show (1 : Fin 2) ∉ (rowDims N K R C wf).startIndexMap from (show (1 : Fin 2) ∉ [(0 : Fin 2)] by decide))]
    rw [hs]
    simp only [Nat.add_zero, Nat.zero_add]
    unfold GatherDims.offCoord
    rw [dif_pos ((GatherDims.mem_sKept _ _).mpr ⟨(show (1 : Fin 2) ∉ [(0 : Fin 2)] by decide), List.not_mem_nil⟩)]
    rfl

/-! ### The reference's stages at an index -/

/-- A row number is not wrapped. -/
private theorem wrapped_apply (enc : IVec S128x262144 32) (t : Fin 128) (n : Fin 262144) (h : (enc (ix2 t n)).toNat < 65536) :
    wrapped enc (ix2 t n) = enc (ix2 t n) := by
  unfold wrapped
  rw [select_apply]
  have hc : cmpi .slt enc (broadcastInDim S128x262144 ![] bcast_S_S128x262144 (constantI S_ 32 0#32)) (ix2 t n) = 0#1 := by
    show IntOp.cmpi .slt (enc (ix2 t n)) 0#32 = 0#1
    exact slt_zero_of_small (by omega)
  rw [hc, select_zero]

/-- The start index at `(t, n, ·)` is the wrapped word at `(t, n)`. -/
private theorem starts_apply (enc : IVec S128x262144 32) (t : Fin 128) (n : Fin 262144) (u : Fin 1) :
    starts enc (ix3 t n u) = wrapped enc (ix2 t n) := by
  unfold starts
  exact broadcastInDim_apply _ _ _ (ix3 t n u) (ix2 t n) (fun a => match a with | ⟨0, _⟩ => rfl | ⟨1, _⟩ => rfl)

/-- Every mark is set. -/
private theorem marks_apply (enc : IVec S128x262144 32) (h : ∀ i, (enc i).toNat < 65536) (j : S128x262144.Idx) :
    marks enc j = 1#1 := by
  unfold marks
  refine reduce_andi_of_all _ _ _ _ rfl (fun i => ?_) j
  obtain ⟨t, n, u, rfl⟩ : ∃ (t : Fin 128) (n : Fin 262144) (u : Fin 1), i = ix3 t n u := ⟨i 0, i 1, i 2, eq_ix3 i⟩
  show IntOp.andi (IntOp.cmpi .sge (starts enc (ix3 t n u)) 0#32) (IntOp.cmpi .sle (starts enc (ix3 t n u)) 65535#32) = 1#1
  have hw := h (ix2 t n)
  rw [starts_apply, wrapped_apply _ _ _ hw, sge_zero_of_small (by omega), sle_max_of_lt hw]
  decide

/-- Entry `(v, t, n)` of the reference's result is the table's entry at row `enc (t, n)`, column `v`. -/
theorem refOut_apply (tl : FVec F S65536x2 .f32) (enc : IVec S128x262144 32) (h : ∀ i, (enc i).toNat < 65536)
    (v : Fin 2) (t : Fin 128) (n : Fin 262144) :
    refOut tl enc (ix3 v t n) = tl (ix2 (⟨(enc (ix2 t n)).toNat, h _⟩ : Fin 65536) v) := by
  unfold refOut
  rw [transpose_apply _ _ _ (ix3 v t n) (ix3 t n v) (fun b => match b with | ⟨0, _⟩ => rfl | ⟨1, _⟩ => rfl | ⟨2, _⟩ => rfl)]
  rw [select_apply]
  have hm : broadcastInDim S128x262144x2 ![0, 1] bcast_S128x262144_S128x262144x2_0_1 (marks enc) (ix3 t n v) = 1#1 := by
    unfold broadcastInDim
    exact marks_apply enc h _
  have hG : gather_S65536x2_S128x262144x1_S128x262144x2_2_0_n_n_0_2_12
      = rowDims 65536 2 128 262144 gather_S65536x2_S128x262144x1_S128x262144x2_2_0_n_n_0_2_12_wf := rfl
  have hw := h (ix2 t n)
  have e : min (starts enc (ix3 t n (0 : Fin 1))).toInt.toNat (65536 - 1) = (enc (ix2 t n)).toNat := by
    rw [starts_apply, wrapped_apply _ _ _ hw, toInt_toNat_of_lt (by omega)]
    omega
  rw [hm, select_one, hG, gather_row_apply (by decide)]
  exact congrArg tl (congrArg (fun r => ix2 r v) (Fin.ext e))

/-- INTERFACE. On code words that are row numbers the reference's result is the specification's function. -/
theorem refOut_eq (tl : FVec Ideal S65536x2 .f32) (enc : IVec S128x262144 32) (h : Cert.Spec.InRange enc) :
    refOut (F := Ideal) tl enc = Cert.Spec.lookup tl enc := by
  funext i
  obtain ⟨v, t, n, rfl⟩ : ∃ (v : Fin 2) (t : Fin 128) (n : Fin 262144), i = ix3 v t n := ⟨i 0, i 1, i 2, eq_ix3 i⟩
  rw [Cert.Spec.lookup_apply, refOut_apply tl enc h v t n]
  refine congrArg tl (congrArg (fun r => ix2 r v) (Fin.ext ?_))
  show (enc (ix2 t n)).toNat = (enc (ix2 t n)).toNat % 65536
  exact (Nat.mod_eq_of_lt (h _)).symm

end Value

end Cert.ReferenceIdeal.RefValue

end
-- ==== Proof.PreDecode.lean ====
/-
  What the precondition says, entry by entry: every table entry is a real number, and every code word is a row
  number of the table (`0 ≤ e < 65536` read as signed words, hence `e.toNat < 65536`).

  The precondition is a conjunction of three statements "every entry of this array of truth values is 1": the
  absolute value of each table entry is below +∞; each code word is at least 0 as a signed word; each code word is
  below 65536 as a signed word. An extended real whose absolute value `max x (-x)` is below `⊤` is neither `⊤` nor
  `⊥`, so it is a real number. A 32-bit word that is nonnegative as a signed word reads the same signed and
  unsigned, so the signed bound 65536 is a bound on its unsigned value.
-/
import proofs.«423921_j403726926457_3_alg».proof.Pre_finite_inputs
import proofs.«423921_j403726926457_3_alg».proof.Proof.Gen.Pre_finite_inputs
import proofs.«423921_j403726926457_3_alg».proof.Proof.Spec
import proofs.«423921_j403726926457_3_alg».proof.Proof.LibFinite
import Idealize.ShloMosaic.Lib.ReduceAll
import Idealize.ShloMosaic.Lib.StableHlo.Predicate

noncomputable section

namespace Cert.PreDecode

open Idealize.ShloMosaic

variable [Cert.Pre_finite_inputs.Facts]

/-- The shape of a single truth value has exactly one index. -/
instance : Subsingleton Cert.Pre_finite_inputs.S_.Idx := ⟨fun a b => funext fun d => d.elim0⟩

/-- The word `0x7F800000` (sign 0, exponent all ones, fraction 0) denotes `+∞`. -/
theorem ofBits_inf : Ideal.ofBits .f32 0x7F800000#32 = (⊤ : EReal) := by
  simp [Ideal.ofBits, Ideal.ieee]

/-- An extended real whose absolute value `max x (-x)` is strictly below `+∞` is a real number: `x = ⊤` gives
    `max ⊤ ⊥ = ⊤`, and `x = ⊥` gives `max ⊥ ⊤ = ⊤`. -/
theorem isFin_of_abs_lt (x : EReal)
    (h : Ideal.cmp .olt (max x (-x)) (Ideal.ofBits .f32 0x7F800000#32) = 1#1) : Cert.Fin.IsFin x := by
  rw [ofBits_inf] at h
  simp only [Ideal.cmp, StableHlo.Predicate.ofBool_eq_one_iff, decide_eq_true_eq] at h
  induction x using EReal.rec with
  | bot => simp at h
  | top => simp at h
  | coe r => exact ⟨r, rfl⟩

/-- A 32-bit word `e` with `0 ≤ e` and `e < 65536` as signed words has unsigned value below 65536: were its
    unsigned value `2³¹` or more, its signed value `e.toNat - 2³²` would be negative. -/
theorem toNat_lt_of_cmp (e : BitVec 32) (h0 : IntOp.cmpi .sge e 0#32 = 1#1) (h1 : IntOp.cmpi .slt e 65536#32 = 1#1) :
    e.toNat < 65536 := by
  rw [IntOp.cmpi_sge] at h0
  rw [IntOp.cmpi_slt] at h1
  have z : (0#32 : BitVec 32).toInt = 0 := by decide
  have k : (65536#32 : BitVec 32).toInt = 65536 := by decide
  rw [z] at h0; rw [k] at h1
  have := e.isLt
  unfold BitVec.toInt at h0 h1
  split at h0 <;> omega

/-- INTERFACE. The printed precondition, all ones, gives: the table's entries are real numbers and the code words are
    row numbers. -/
theorem of_pre (tl : FVec Ideal Cert.Pre_finite_inputs.S65536x2 .f32) (enc : IVec Cert.Pre_finite_inputs.S128x262144 32)
    (h : Cert.Pre_finite_inputs.fn (F := Ideal) tl enc = fun _ => 1#1) :
    Cert.Fin.AllFin tl ∧ Cert.Spec.InRange enc := by
  -- the one truth value the precondition computes is 1
  have e := congrFun h ValueIdx.ix0
  dsimp only [Cert.Pre_finite_inputs.fn] at e
  -- it is the conjunction of three "all entries are 1"
  change IntOp.andi (IntOp.andi _ _) _ = 1#1 at e
  rw [IntOp.andi_eq_one, IntOp.andi_eq_one] at e
  obtain ⟨⟨e1, e2⟩, e3⟩ := e
  refine ⟨fun i => ?_, fun i => ?_⟩
  · -- entry `i` of the first array: |tl i| < +∞
    exact isFin_of_abs_lt (tl i) (Host.reduce_andi_all _ _ _ _ _ e1 i)
  · -- entry `i` of the second and third arrays: 0 ≤ enc i and enc i < 65536, signed
    exact toNat_lt_of_cmp (enc i) (Host.reduce_andi_all _ _ _ _ _ e2 i) (Host.reduce_andi_all _ _ _ _ _ e3 i)

end Cert.PreDecode

end
-- ==== Proof.lean ====
/-
  The claim: a table lookup done in two steps of eight bits equals the lookup done at once.

  The reference returns `out (v, t, n) = tlut (encoded (t, n), v)`. The kernel lays the table out as 256 rows of 512
  entries (row `h` holds, side by side, the two columns of table rows `256 h … 256 h + 255`), and for each code word
  `e` picks row `e / 256` by a sum against an indicator (done as a matrix product) and then entry `e % 256` of each
  half by a second sum against an indicator. A sum against an indicator is the entry it points at, on the extended
  reals as on the reals (`0 · x = 0` for every `x`), so the two agree — given two things the precondition states:
  every code word is a row number (the kernel clamps a word into the table, the reference wraps a negative one or
  fills, so outside the table they differ), and every table entry is a real number (the kernel adds a second product
  with the table `T - T`, which is zero only where `T` is real).

  The pieces: `Spec` (the result as one function; the layout; the indicator sums), `PreDecode` (the precondition entry
  by entry), `Tables` (the two tables the kernel's region finds), `Payload` (one loop trip at an entry), `KernelRun`
  and `KernelValue` (the trips' stores as one block; the blocks as the array), `RefValue` (the reference's run and
  value). The frames of the two kernel programs are the generated ones, over a run of the body in which the loop's
  stores are first shown not to depend on what the output block held before (`LoopKI`, `LoopK`); the reference's
  frame is its run with the result dropped.
-/
import proofs.«423921_j403726926457_3_alg».proof.Defs
import proofs.«423921_j403726926457_3_alg».proof.Proof.KFrame
import proofs.«423921_j403726926457_3_alg».proof.Proof.Gen.Pre_finite_inputs
import proofs.«423921_j403726926457_3_alg».proof.Proof.KernelValue
import proofs.«423921_j403726926457_3_alg».proof.Proof.RefValue
import proofs.«423921_j403726926457_3_alg».proof.Proof.PreDecode

noncomputable section

namespace Cert.Proof

open Idealize.ShloMosaic Idealize.ShloMosaic.TcCoe Idealize.SL.Sem

theorem frame_k : Cert.frame_Kernel := fun m ρ _ => Cert.Kernel.GenP.frame m ρ

theorem frame_ki : Cert.frame_KernelIdeal := fun m ρ _ => Cert.KernelIdeal.GenP.frame m ρ

/-- The reference's frame is its run with the result dropped. -/
theorem frame_ri : Cert.frame_ReferenceIdeal := fun m ρ _ =>
  (θ_run Cert.ReferenceIdeal.defs _ _).mono (fun _ h c => (h c).2) (Cert.ReferenceIdeal.RefValue.run (F := Ideal) m ρ)

/-- Nothing was rewritten on the way to the idealized kernel. -/
theorem preserves : Cert.preserves_Kernel_KernelIdeal := trivial

/-- Both programs end at `Spec.lookup` of the arguments: the kernel by its blocks (`KValue.run`), the reference by its
    run read at an index (`RefValue.refOut_eq`), the precondition giving both what they need (`PreDecode.of_pre`). -/
theorem algebraic : Cert.algebraic_KernelIdeal_ReferenceIdeal := by
  intro m ρ m' ρ' hpre hagree
  have hp : ∀ c : Dev Cert.KernelIdeal.nD, _ := fun c => Cert.PreDecode.of_pre _ _ (hpre c)
  refine ⟨fun c => Cert.Spec.lookup (m ((c.tc : Thread Cert.KernelIdeal.nD Cert.KernelIdeal.τ).loc Cert.KernelIdeal.main_arg0))
      (m ((c.tc : Thread Cert.KernelIdeal.nD Cert.KernelIdeal.τ).loc Cert.KernelIdeal.main_arg1)),
    Cert.KernelIdeal.KValue.run m ρ (fun c => (hp c).1) (fun c => (hp c).2), ?_⟩
  refine (θ_run Cert.ReferenceIdeal.defs _ _).mono (fun _ h c => ⟨(h c).1.trans ?_, (h c).2⟩)
    (Cert.ReferenceIdeal.RefValue.run (F := Ideal) m' ρ')
  rw [(hagree c).1, (hagree c).2]
  exact Cert.ReferenceIdeal.RefValue.refOut_eq _ _ (hp c).2

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
